-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S3x2048 : Shape := ⟨2, ![3, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S3x2048 : S_.BroadcastsInDim S3x2048 (![] : Fin 0 → Fin S3x2048.rank)
  reducesTo_S3x2048_S_d0_1 : S3x2048.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x2048 .f32) (main_arg1 : IVec S32768 32) (main_arg2 : FVec F S3x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S3x2048 .f32 := Host.absf main_arg2
  let main_cst_0 : FVec F S_ .f32 := constant S_ .f32 0x7F800000#32
  let main_v5 : FVec F S3x2048 .f32 := broadcastInDim S3x2048 ![] bcast_S_S3x2048 main_cst_0
  let main_v6 : IVec S3x2048 1 := cmpf .olt main_v4 main_v5
  let main_c_1 : IVec S_ 1 := constantI S_ 1 1#1
  let main_v7 : IVec S_ 1 := (fun x v => Host.reduce IntOp.andi x v reducesTo_S3x2048_S_d0_1 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg1 main_v9
  let main_c_3 : IVec S_ 32 := constantI S_ 32 3#32
  let main_v11 : IVec S32768 32 := broadcastInDim S32768 ![] bcast_S_S32768 main_c_3
  let main_v12 : IVec S32768 1 := cmpi .slt main_arg1 main_v11
  let main_v13 : IVec S32768 1 := andi main_v10 main_v12
  let main_c_4 : IVec S_ 1 := constantI S_ 1 1#1
  let main_v14 : IVec S_ 1 := (fun x v => Host.reduce IntOp.andi x v reducesTo_S32768_S_d0 h_S_) main_v13 main_c_4
  let main_v15 : IVec S_ 1 := andi main_v8 main_v14
  main_v15
-- ==== Kernel.lean ====
abbrev S32768x2048 : Shape := ⟨2, ![32768, 2048]⟩
abbrev S32768 : Shape := ⟨1, ![32768]⟩
abbrev S3x2048 : Shape := ⟨2, ![3, 2048]⟩
abbrev S32768x1 : Shape := ⟨2, ![32768, 1]⟩
abbrev S2048x3 : Shape := ⟨2, ![2048, 3]⟩
abbrev S_ : Shape := ⟨0, ![]⟩
abbrev S2048x128 : Shape := ⟨2, ![2048, 128]⟩
abbrev S3 : Shape := ⟨1, ![3]⟩
abbrev S128 : Shape := ⟨1, ![128]⟩
abbrev S1x128 : Shape := ⟨2, ![1, 128]⟩
abbrev S256x128 : Shape := ⟨2, ![256, 128]⟩
abbrev S1024x2048 : Shape := ⟨2, ![1024, 2048]⟩
abbrev S1024x1 : Shape := ⟨2, ![1024, 1]⟩
abbrev S8x128 : Shape := ⟨2, ![8, 128]⟩
abbrev S1024 : Shape := ⟨1, ![1024]⟩
abbrev S1024x128 : Shape := ⟨2, ![1024, 128]⟩
abbrev S1x3 : Shape := ⟨2, ![1, 3]⟩
abbrev S1024x3 : Shape := ⟨2, ![1024, 3]⟩
abbrev S1 : Shape := ⟨1, ![1]⟩
abbrev S1x1 : Shape := ⟨2, ![1, 1]⟩
abbrev S32x8x128 : Shape := ⟨3, ![32, 8, 128]⟩
abbrev S32x1x3 : Shape := ⟨3, ![32, 1, 3]⟩
abbrev S32x3 : Shape := ⟨2, ![32, 3]⟩

abbrev nBuf : Space → Nat
  | .hbm => 35
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S3x2048, .f32⟩
  | .hbm, ⟨3, _⟩ => ⟨S32768x1, .i32⟩
  | .hbm, ⟨4, _⟩ => ⟨S2048x3, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S3x2048, .f32⟩
  | .hbm, ⟨9, _⟩ => ⟨S_, .f32⟩
  | .hbm, ⟨10, _⟩ => ⟨S3, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S256x128, .f32⟩
  | .hbm, ⟨16, _⟩ => ⟨S32x8x128, .f32⟩
  | .hbm, ⟨17, _⟩ => ⟨S32x1x3, .f32⟩
  | .hbm, ⟨18, _⟩ => ⟨S32x3, .f32⟩
  | .hbm, ⟨19, _⟩ => ⟨S_, .f32⟩
  | .hbm, ⟨20, _⟩ => ⟨S3, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S2048x128, .f32⟩
  | .local _ .vmem, ⟨5, _⟩ => ⟨S1x128, .f32⟩
  | .local _ .vmem, ⟨6, _⟩ => ⟨S8x128, .f32⟩
  | .local _ .vmem, ⟨7, _⟩ => ⟨S8x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768_S32768x1 : S32768.ShapeCasts S32768x1
  transposes_S3x2048_S2048x3_1_0 : S3x2048.Transposes [1, 0] S2048x3
  pads_S2048x3_S2048x128_000_01250 : S2048x3.Pads (![0, 0] : Fin 2 → Nat) ![0, 125] ![0, 0] S2048x128
  h_S_ : 0 < S_.numel
  reducesTo_S3x2048_S3_d1 : S3x2048.ReducesTo [1] S3
  pads_S3_S128_01250 : S3.Pads (![0] : Fin 1 → Nat) ![125] ![0] S128
  shapeCasts_S128_S1x128 : S128.ShapeCasts S1x128
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S1x128_o0_0_S1x3 : S1x128.Slices ![0, 0] S1x3
  slices_S1024x128_o0_0_S1024x3 : S1024x128.Slices ![0, 0] S1024x3
  broadcasts_S1024x1_S1024x3 : S1024x1.Broadcasts S1024x3
  broadcasts_S1x3_S1024x3 : S1x3.Broadcasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  reduces_S1024x1_S1 : S1024x1.Reduces [0] S1
  shapeCasts_S1_S1x1 : S1.ShapeCasts S1x1
  inb_S8x128_S8x128_0_0 : ∀ a, (![0, 0] : Fin 2 → Nat) a + S8x128.size a ≤ S8x128.size a
  h_S8x128 : 0 < S8x128.numel
  inb_S8x128_S1x1_0_0 : ∀ a, (![0, 0] : Fin 2 → Nat) a + S1x1.size a ≤ S8x128.size a
  h_S1x1 : 0 < S1x1.numel
  inb_S8x128_S1x1_0_1 : ∀ a, (![0, 1] : Fin 2 → Nat) a + S1x1.size a ≤ S8x128.size a
  inb_S8x128_S1x1_0_2 : ∀ a, (![0, 2] : Fin 2 → Nat) a + S1x1.size a ≤ S8x128.size a
  shapeCasts_S256x128_S32x8x128 : S256x128.ShapeCasts S32x8x128
  slices_S32x8x128_S32x1x3_0_0_0 : S32x8x128.Slices ![0, 0, 0] S32x1x3
  shapeCasts_S32x1x3_S32x3 : S32x1x3.ShapeCasts S32x3
  reducesTo_S32x3_S3_d0 : S32x3.ReducesTo [0] S3
  slices_S3_S1_0 : S3.Slices ![0] S1
  shapeCasts_S1_S_ : S1.ShapeCasts S_
  slices_S3_S1_1 : S3.Slices ![1] S1
  slices_S3_S1_2 : S3.Slices ![2] S1
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S256x128.size a
  hwx0_4 : ∀ i : grid0.Coords, EltTy.bits .f32 = 32 ∨ (Rect.block (s := S256x128) S8x128.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768 : Shape := ⟨1, ![32768]⟩
abbrev S3x2048 : Shape := ⟨2, ![3, 2048]⟩
abbrev S_ : Shape := ⟨0, ![]⟩
abbrev S32768x1 : Shape := ⟨2, ![32768, 1]⟩

abbrev nBuf : Space → Nat
  | .hbm => 102
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S3x2048, .f32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x2048, .f32⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S_, .i1⟩
  | .hbm, ⟨31, _⟩ => ⟨S32768, .i1⟩
  | .hbm, ⟨32, _⟩ => ⟨S32768, .i1⟩
  | .hbm, ⟨33, _⟩ => ⟨S32768, .i1⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S_, .i32⟩
  | .hbm, ⟨38, _⟩ => ⟨S32768, .i32⟩
  | .hbm, ⟨39, _⟩ => ⟨S32768, .i1⟩
  | .hbm, ⟨40, _⟩ => ⟨S_, .i32⟩
  | .hbm, ⟨41, _⟩ => ⟨S32768, .i32⟩
  | .hbm, ⟨42, _⟩ => ⟨S32768, .i32⟩
  | .hbm, ⟨43, _⟩ => ⟨S32768, .i32⟩
  | .hbm, ⟨44, _⟩ => ⟨S32768x1, .i32⟩
  | .hbm, ⟨45, _⟩ => ⟨S32768x2048, .f32⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S32768, .i32⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i1⟩
  | .hbm, ⟨63, _⟩ => ⟨S_, .i32⟩
  | .hbm, ⟨64, _⟩ => ⟨S_, .i1⟩
  | .hbm, ⟨65, _⟩ => ⟨S32768, .i1⟩
  | .hbm, ⟨66, _⟩ => ⟨S32768, .i1⟩
  | .hbm, ⟨67, _⟩ => ⟨S32768, .i1⟩
  | .hbm, ⟨68, _⟩ => ⟨S32768, .i32⟩
  | .hbm, ⟨69, _⟩ => ⟨S32768, .i32⟩
  | .hbm, ⟨70, _⟩ => ⟨S32768, .i32⟩
  | .hbm, ⟨71, _⟩ => ⟨S_, .i32⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i32⟩
  | .hbm, ⟨77, _⟩ => ⟨S32768, .i32⟩
  | .hbm, ⟨78, _⟩ => ⟨S32768x1, .i32⟩
  | .hbm, ⟨79, _⟩ => ⟨S32768x2048, .f32⟩
  | .hbm, ⟨80, _⟩ => ⟨S32768x2048, .f32⟩
  | .hbm, ⟨81, _⟩ => ⟨S32768x2048, .f32⟩
  | .hbm, ⟨82, _⟩ => ⟨S_, .f32⟩
  | .hbm, ⟨83, _⟩ => ⟨S_, .f32⟩
  | .hbm, ⟨84, _⟩ => ⟨S32768x2048, .f32⟩
  | .hbm, ⟨85, _⟩ => ⟨S32768x2048, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S32768x2048, .f32⟩
  | .hbm, ⟨90, _⟩ => ⟨S32768x2048, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v19 : Ref sig .tc := ⟨.hbm, 70, rfl⟩
abbrev main_c_7 : Ref sig .tc := ⟨.hbm, 71, rfl⟩
abbrev main_v20 : Ref sig .tc := ⟨.hbm, 72, rfl⟩
abbrev main_v21 : Ref sig .tc := ⟨.hbm, 73, rfl⟩
abbrev main_c_8 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_cst : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_9 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_10 : Ref sig .tc := ⟨.hbm, 91, rfl⟩
abbrev main_v36 : Ref sig .tc := ⟨.hbm, 92, rfl⟩
abbrev main_cst_11 : Ref sig .tc := ⟨.hbm, 93, rfl⟩
abbrev main_v37 : Ref sig .tc := ⟨.hbm, 94, rfl⟩
abbrev main_cst_12 : Ref sig .tc := ⟨.hbm, 95, rfl⟩
abbrev main_v38 : Ref sig .tc := ⟨.hbm, 96, rfl⟩
abbrev main_v39 : Ref sig .tc := ⟨.hbm, 97, rfl⟩
abbrev main_cst_13 : Ref sig .tc := ⟨.hbm, 98, rfl⟩
abbrev main_v40 : Ref sig .tc := ⟨.hbm, 99, rfl⟩
abbrev main_cst_14 : Ref sig .tc := ⟨.hbm, 100, rfl⟩
abbrev main_v41 : Ref sig .tc := ⟨.hbm, 101, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  reducesTo_S32768x2048_S_d0_1 : S32768x2048.ReducesTo [0, 1] S_
  h_S_ : 0 < S_.numel
  gather_S3x2048_S32768x1_S32768x2048_1_0_n_n_0_1_12048_wf : GatherDims.WF S3x2048 S32768x1 S32768x2048 [1] [0] [] [0] [] 1 ![1, 2048]

variable [Facts₀]

def gather_S3x2048_S32768x1_S32768x2048_1_0_n_n_0_1_12048 : GatherDims S3x2048 S32768x1 S32768x2048 where
  offsetDims := [1]
  collapsedSliceDims := [0]
  operandBatchingDims := []
  startIndicesBatchingDims := []
  startIndexMap := [0]
  indexVectorDim := 1
  sliceSizes := ![1, 2048]
  wf := gather_S3x2048_S32768x1_S32768x2048_1_0_n_n_0_1_12048_wf

class Facts : Prop extends Facts₀ where

variable [Facts]
-- ==== Proof.PreDecode.lean ====
/-
  What the precondition says about the three argument arrays, entry by entry: every feature and every center entry is a
  real number (its absolute value is below +∞), and every label word is 0, 1 or 2 (it is at least 0 and below 3 as a
  signed integer).
-/
import proofs.«410918_j51951924413098_3_alg».proof.Pre_finite_inputs
import proofs.«410918_j51951924413098_3_alg».proof.Proof.Gen.Pre_finite_inputs
import Idealize.ShloMosaic.PureOps.Ideal
import Idealize.ShloMosaic.Lib.ReduceAll
import Idealize.ShloMosaic.Lib.StableHlo.Predicate

noncomputable section

namespace Cert.PreDecode

open Idealize.ShloMosaic Cert.Pre_finite_inputs

variable {feat : FVec Ideal S32768x2048 .f32} {label : IVec S32768 32} {cen : FVec Ideal S3x2048 .f32}

/-- The scalar shape has one index. -/
private instance subsingleton_scalar_idx : Subsingleton S_.Idx := ⟨fun a b => funext fun d => d.elim0⟩

/-- The one index of the scalar shape. -/
private abbrev j0 : S_.Idx := fun d => d.elim0

/-- An extended real whose absolute value `max x (-x)` is below `+∞` is neither infinity: it is a real. -/
private theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The pattern 0x7F800000 denotes `+∞`. -/
private theorem inf_bits : Ideal.ofBits .f32 0x7F800000#32 = ⊤ := by simp [Ideal.ofBits, Ideal.ieee]

/-- The precondition is a conjunction of three one-bit words, each a reduction by `and` over a whole array: all three are 1. -/
private theorem split (h : fn (F := Ideal) feat label cen = fun _ => 1#1) :
    (Host.reduce IntOp.andi
        (cmpf .olt (Host.absf feat) (broadcastInDim S32768x2048 ![] Facts.bcast_S_S32768x2048 (constant (F := Ideal) S_ .f32 0x7F800000#32)))
        (constantI S_ 1 1#1) Facts.reducesTo_S32768x2048_S_d0_1 Facts.h_S_ j0 = 1#1)
    ∧ (Host.reduce IntOp.andi
        (cmpf .olt (Host.absf cen) (broadcastInDim S3x2048 ![] Facts.bcast_S_S3x2048 (constant (F := Ideal) S_ .f32 0x7F800000#32)))
        (constantI S_ 1 1#1) Facts.reducesTo_S3x2048_S_d0_1 Facts.h_S_ j0 = 1#1)
    ∧ (Host.reduce IntOp.andi
        (andi (cmpi .sge label (broadcastInDim S32768 ![] Facts.bcast_S_S32768 (constantI S_ 32 0#32)))
          (cmpi .slt label (broadcastInDim S32768 ![] Facts.bcast_S_S32768 (constantI S_ 32 3#32))))
        (constantI S_ 1 1#1) Facts.reducesTo_S32768_S_d0 Facts.h_S_ j0 = 1#1) := by
  have h0 := congrFun h j0
  dsimp only [fn] at h0
  obtain ⟨h12, h3⟩ := IntOp.andi_eq_one.1 h0
  obtain ⟨h1, h2⟩ := IntOp.andi_eq_one.1 h12
  exact ⟨h1, h2, h3⟩

/-- Every feature is a real number. -/
theorem feat_real (h : fn (F := Ideal) feat label cen = fun _ => 1#1) (i : S32768x2048.Idx) : ∃ x : ℝ, feat i = (x : EReal) := by
  have e := Host.reduce_andi_all _ _ _ _ _ (split h).1 i
  -- at entry i the compare reads: |feat i| < the value of the pattern 0x7F800000, which is +∞
  have e' : Ideal.cmp .olt (max (feat i) (-(feat i))) (Ideal.ofBits .f32 0x7F800000#32) = 1#1 := e
  rw [inf_bits] at e'
  simp only [Ideal.cmp, StableHlo.Predicate.ofBool_eq_one_iff, decide_eq_true_eq] at e'
  exact real_of_abs_lt_top _ e'

/-- Every center entry is a real number. -/
theorem cen_real (h : fn (F := Ideal) feat label cen = fun _ => 1#1) (i : S3x2048.Idx) : ∃ x : ℝ, cen i = (x : EReal) := by
  have e := Host.reduce_andi_all _ _ _ _ _ (split h).2.1 i
  have e' : Ideal.cmp .olt (max (cen i) (-(cen i))) (Ideal.ofBits .f32 0x7F800000#32) = 1#1 := e
  rw [inf_bits] at e'
  simp only [Ideal.cmp, StableHlo.Predicate.ofBool_eq_one_iff, decide_eq_true_eq] at e'
  exact real_of_abs_lt_top _ e'

/-- Every label word is 0, 1 or 2. -/
theorem label_lt (h : fn (F := Ideal) feat label cen = fun _ => 1#1) (i : S32768.Idx) : (label i).toNat < 3 := by
  have e := Host.reduce_andi_all _ _ _ _ _ (split h).2.2 i
  -- at entry i: 0 ≤ label i and label i < 3, both as signed 32-bit integers
  have e' : IntOp.andi (IntOp.cmpi .sge (label i) 0#32) (IntOp.cmpi .slt (label i) 3#32) = 1#1 := e
  obtain ⟨hge, hlt⟩ := IntOp.andi_eq_one.1 e'
  simp only [IntOp.cmpi, StableHlo.Predicate.ofBool_eq_one_iff, BitVec.sle, BitVec.slt, decide_eq_true_eq] at hge hlt
  have h0 : (0#32 : BitVec 32).toInt = 0 := by decide
  have h3 : (3#32 : BitVec 32).toInt = 3 := by decide
  rw [h0] at hge
  rw [h3] at hlt
  rw [BitVec.toInt_eq_toNat_cond] at hge hlt
  have hb := (label i).isLt
  split at hge <;> omega

end Cert.PreDecode

end
-- ==== Proof.KerStored.lean ====
/-
  What the body leaves in the output block at one grid point.

  The body stores a block of zeros over the whole 8 × 128 output block and then three single entries of row 0: at column 0
  the sum of the own-class values, at column 1 the sum of the next-class values, at column 2 the sum of the values two
  classes on.  A later store wins where it lands and leaves the rest alone, so entry (0, j) of the block, for j = 0, 1, 2,
  is the single entry of the j-th of those three values, each a pure function of the four input blocks.
-/
import proofs.«410918_j51951924413098_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.KerValue

open Cert.KernelIdeal Cert.KernelIdeal.Gen Idealize.ShloMosaic Idealize.ShloMosaic.TcCoe Idealize.ShloMosaic.Tactic
open Idealize.ShloMosaic.ValueIdx Idealize.SL.Sem

/-- The zero offsets, spelt as the printed rectangles spell them. -/
theorem hz : (![0, 0] : Fin 2 → Nat) = fun _ => 0 := funext fun a => by fin_cases a <;> rfl

/-! ## Four stores into an 8 × 128 block, read at row 0: any payloads -/

section Stores

variable {Val : EltTy → Type} [∀ e, Nonempty (Val e)] {e : EltTy}
variable (h2 : ∀ a, (![0, 2] : Fin 2 → Nat) a + (![1, 1] : Fin 2 → Nat) a ≤ S8x128.size a)
  (h1 : ∀ a, (![0, 1] : Fin 2 → Nat) a + (![1, 1] : Fin 2 → Nat) a ≤ S8x128.size a)
  (h0 : ∀ a, (![0, 0] : Fin 2 → Nat) a + (![1, 1] : Fin 2 → Nat) a ≤ S8x128.size a)
  (hw : ∀ a, (![0, 0] : Fin 2 → Nat) a + (![8, 128] : Fin 2 → Nat) a ≤ S8x128.size a)
  (P3 P2 P1 : (⟨2, ![1, 1]⟩ : Shape).Idx → Val e) (P4 : (⟨2, ![8, 128]⟩ : Shape).Idx → Val e)

/-- An index whose column is left of a single-entry store's column is not under that store. -/
theorem not_under {off size : Fin 2 → Nat} {inb : ∀ a, off a + size a ≤ S8x128.size a} {y : S8x128.Idx}
    (h : (y 1 : Nat) < off 1) : y ∉ (Rect.unit (s := S8x128) off size inb).set :=
  fun hm => absurd ((Rect.mem_set_unit.mp hm) 1).1 (by omega)

/-- The whole-block store, then single entries at columns 0, 1, 2 of row 0 (listed last first). -/
abbrev fourStores : List (View.Piece Val S8x128 e) :=
  [⟨Rect.unit (s := S8x128) ![0, 2] ![1, 1] h2, P3⟩, ⟨Rect.unit (s := S8x128) ![0, 1] ![1, 1] h1, P2⟩,
    ⟨Rect.unit (s := S8x128) ![0, 0] ![1, 1] h0, P1⟩, ⟨Rect.unit (s := S8x128) ![0, 0] ![8, 128] hw, P4⟩]

/-- Row 0, column `j` of the block is the one entry of the single-entry store at column `j`. -/
theorem at2_eq : (ix2 0 2 : S8x128.Idx) = (Rect.unit (s := S8x128) ![0, 2] ![1, 1] h2).emb (ix2 (0 : Fin 1) (0 : Fin 1)) := by
  funext a; apply Fin.ext
  match a with
  | ⟨0, _⟩ => rfl
  | ⟨1, _⟩ => rfl
theorem at1_eq : (ix2 0 1 : S8x128.Idx) = (Rect.unit (s := S8x128) ![0, 1] ![1, 1] h1).emb (ix2 (0 : Fin 1) (0 : Fin 1)) := by
  funext a; apply Fin.ext
  match a with
  | ⟨0, _⟩ => rfl
  | ⟨1, _⟩ => rfl
theorem at0_eq : (ix2 0 0 : S8x128.Idx) = (Rect.unit (s := S8x128) ![0, 0] ![1, 1] h0).emb (ix2 (0 : Fin 1) (0 : Fin 1)) := by
  funext a; apply Fin.ext
  match a with
  | ⟨0, _⟩ => rfl
  | ⟨1, _⟩ => rfl

theorem fourStores_at2 :
    View.canon (fourStores h2 h1 h0 hw P3 P2 P1 P4) (ix2 0 2) = P3 (ix2 0 0) := by
  unfold fourStores
  rw [at2_eq h2]
  exact View.canon_cons_emb (Rect.unit (s := S8x128) ![0, 2] ![1, 1] h2) P3 _ (ix2 (0 : Fin 1) (0 : Fin 1))

theorem fourStores_at1 :
    View.canon (fourStores h2 h1 h0 hw P3 P2 P1 P4) (ix2 0 1) = P2 (ix2 0 0) := by
  unfold fourStores
  refine (View.canon_cons_of_not_mem (⟨(Rect.unit (s := S8x128) ![0, 2] ![1, 1] h2), P3⟩ : View.Piece Val S8x128 e) _ (y := (ix2 0 1 : S8x128.Idx))
    (not_under (off := ![0, 2]) (size := ![1, 1]) (inb := h2) (y := (ix2 0 1 : S8x128.Idx)) (show (1 : Nat) < 2 by omega))).trans ?_
  rw [at1_eq h1]
  exact View.canon_cons_emb (Rect.unit (s := S8x128) ![0, 1] ![1, 1] h1) P2 _ (ix2 (0 : Fin 1) (0 : Fin 1))

theorem fourStores_at0 :
    View.canon (fourStores h2 h1 h0 hw P3 P2 P1 P4) (ix2 0 0) = P1 (ix2 0 0) := by
  unfold fourStores
  refine (View.canon_cons_of_not_mem (⟨(Rect.unit (s := S8x128) ![0, 2] ![1, 1] h2), P3⟩ : View.Piece Val S8x128 e) _ (y := (ix2 0 0 : S8x128.Idx))
    (not_under (off := ![0, 2]) (size := ![1, 1]) (inb := h2) (y := (ix2 0 0 : S8x128.Idx)) (show (0 : Nat) < 2 by omega))).trans ?_
  refine (View.canon_cons_of_not_mem (⟨(Rect.unit (s := S8x128) ![0, 1] ![1, 1] h1), P2⟩ : View.Piece Val S8x128 e) _ (y := (ix2 0 0 : S8x128.Idx))
    (not_under (off := ![0, 1]) (size := ![1, 1]) (inb := h1) (y := (ix2 0 0 : S8x128.Idx)) (show (0 : Nat) < 1 by omega))).trans ?_
  rw [at0_eq h0]
  exact View.canon_cons_emb (Rect.unit (s := S8x128) ![0, 0] ![1, 1] h0) P1 _ (ix2 (0 : Fin 1) (0 : Fin 1))

end Stores

/-! ## The body's stores -/

variable {F : FTy → Type} [FloatOps F]

/-- Entry (0, 2) of the block: the last store landed there. -/
theorem stored_after (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S8x128 .f32) (harg5 : arg5.IsWhole)
    (x0 : Vec F S1024x2048 .f32) (x1 : Vec F S1024x1 .i32) (x2 : Vec F S2048x128 .f32) (x3 : Vec F S1x128 .f32) :
    out0_A_4 c i arg1 harg1 arg2 harg2 arg3 harg3 arg4 harg4 arg5 harg5 x0 x1 x2 x3 (ix2 0 2) = k0_pay3 (k0_pay6 x0 x2 x3) (k0_pay7 x0 x2 x3) (k0_pay8 x0 x2 x3) (k0_pay10 x1) (k0_pay11 x1) (k0_pay12 x1) (ix2 0 0) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread,
    View.ld_unit_zero (S := S1024x2048) hz, View.ld_unit_zero (S := S2048x128) hz, View.ld_unit_zero (S := S1x128) hz,
    View.ld_unit_zero (S := S1024x1) hz]
  exact fourStores_at2 _ _ _ _ _ _ _ _

/-- Entry (0, 1): the last store misses it, the one before landed there. -/
theorem stored_next (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S8x128 .f32) (harg5 : arg5.IsWhole)
    (x0 : Vec F S1024x2048 .f32) (x1 : Vec F S1024x1 .i32) (x2 : Vec F S2048x128 .f32) (x3 : Vec F S1x128 .f32) :
    out0_A_4 c i arg1 harg1 arg2 harg2 arg3 harg3 arg4 harg4 arg5 harg5 x0 x1 x2 x3 (ix2 0 1) = k0_pay2 (k0_pay6 x0 x2 x3) (k0_pay7 x0 x2 x3) (k0_pay8 x0 x2 x3) (k0_pay10 x1) (k0_pay11 x1) (k0_pay12 x1) (ix2 0 0) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread,
    View.ld_unit_zero (S := S1024x2048) hz, View.ld_unit_zero (S := S2048x128) hz, View.ld_unit_zero (S := S1x128) hz,
    View.ld_unit_zero (S := S1024x1) hz]
  exact fourStores_at1 _ _ _ _ _ _ _ _

/-- Entry (0, 0): the last two stores miss it, the first single-entry store landed there. -/
theorem stored_own (c : Dev nD) (i : grid0.Coords) (arg1 : Memref sig .tc .vmem S1024x2048 .f32) (harg1 : arg1.IsWhole) (arg2 : Memref sig .tc .vmem S1024x1 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S8x128 .f32) (harg5 : arg5.IsWhole)
    (x0 : Vec F S1024x2048 .f32) (x1 : Vec F S1024x1 .i32) (x2 : Vec F S2048x128 .f32) (x3 : Vec F S1x128 .f32) :
    out0_A_4 c i arg1 harg1 arg2 harg2 arg3 harg3 arg4 harg4 arg5 harg5 x0 x1 x2 x3 (ix2 0 0) = k0_pay1 (k0_pay13 x0 x2 x3 x1) (ix2 0 0) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread,
    View.ld_unit_zero (S := S1024x2048) hz, View.ld_unit_zero (S := S2048x128) hz, View.ld_unit_zero (S := S1x128) hz,
    View.ld_unit_zero (S := S1024x1) hz]
  exact fourStores_at0 _ _ _ _ _ _ _ _

end Cert.KernelIdeal.KerValue

end
-- ==== Proof.KerArray.lean ====
/-
  The output array after the run, read at the first row of a tile's block.

  Point `t` writes its 8 × 128 block back to rows `8·t … 8·t + 7` of the [256, 128] output array.  Two points' blocks are
  rows apart, so no later point touches what point `t` wrote: entry `(8·t, j)` of the final array is entry `(0, j)` of the
  block point `t` left.
-/
import proofs.«410918_j51951924413098_3_alg».proof.Proof.Gen.KernelIdeal.Frame
import Idealize.ShloMosaic.Lib.Pipeline.Value
import Idealize.ShloMosaic.Lib.ValueIdx

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The output array after the run, and the block a point leaves, at their literal types. -/
abbrev outArr (c : Dev nD) : FVec F S256x128 .f32 := (dats m 0 c).arrAt 4 cfg0.N
abbrev outBlk (c : Dev nD) (t : Fin cfg0.N) : FVec F S8x128 .f32 := outsAt0 m c t

/-- What point `t` writes back is the block the body left. -/
theorem flushed_out (c : Dev nD) (t : Fin cfg0.N) :
    (dats m 0 c).flushed 4 t = (cfg0.win 4).cut (grid0.coords t) (outsAt0 m c t) := by
  show (cfg0.win 4).cut (grid0.coords t) ((dats m 0 c).after 4 t) = _
  rw [after0_4]

/-- Distinct points have distinct block indices, -/
theorem idx_inj_out : ∀ t t' : Fin cfg0.N, win0_4.index t = win0_4.index t' → t = t' :=
  (by decide +kernel : ∀ t t' : Fin grid0.N, win0_4.index t = win0_4.index t' → t = t')

/-- so their blocks share no entry of the array, -/
theorem disjoint_out : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj_out t t' h)

/-- and block `t` of the final array, read back, is what point `t` wrote. -/
theorem blocks_out (c : Dev nD) (t : Fin cfg0.N) :
    ((cfg0.win 4).blk t).view.read (Elt F) ((dats m 0 c).arrAt 4 cfg0.N) = (dats m 0 c).flushed 4 t :=
  (dats m 0 c).read_blk_arrAt_eq_flushed 4 disjoint_out cfg0.N t t.isLt (flush0_4 t)

/-- Point `t`'s block index is `(t, 0)`. -/
theorem idx_out : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- The first row of tile `t`'s block in the output array. -/
def tileFirstRow (t : Fin cfg0.N) : Fin 256 :=
  ⟨8 * t.val, by have h : cfg0.N = 32 := N_0; have := t.isLt; omega⟩

/-- An entry under point `t`'s block is that block's entry. -/
theorem outArr_emb (c : Dev nD) (t : Fin cfg0.N) (y : S8x128.Idx) :
    outArr m c (((cfg0.win 4).blk t).view.emb y) = outBlk m c t y := by
  have h := congrFun (blocks_out m c t) y
  rw [flushed_out] at h
  exact h

/-- Entry `(8·t, j)` of the final array is entry `(0, j)` of the block point `t` left. -/
theorem outArr_first (c : Dev nD) (t : Fin cfg0.N) (j : Fin 128) :
    outArr m c (ix2 (tileFirstRow t) j) = outBlk m c t (ix2 0 j) := by
  rw [← outArr_emb m c t (ix2 0 j)]
  obtain ⟨e0, e1⟩ := idx_out t
  refine congrArg (outArr m c) ?_
  funext a; apply Fin.ext
  match a with
  | ⟨0, _⟩ => show 8 * t.val = win0_4.index t (0 : Fin 2) * 8 + 1 * 0; omega
  | ⟨1, _⟩ => show j.val = win0_4.index t (1 : Fin 2) * 128 + 1 * j.val; omega

end Cert.KernelIdeal.KerValue

end
-- ==== Proof.Spec.lean ====
/-
  The center loss, as one function of the three argument arrays.

  For a sample row `b` and a class `k` the squared distance is the sum over the 2048 features of
  `(feat[b, d] - centers[k, d])²`.  A sample's label names its own class `l`; the two other classes are
  `l + 1` and `l + 2` taken mod 3.  Summing the squared distance to the own center over all rows gives the main
  term, summing the distances to the two other centers gives the two spread terms, and the loss is
  `main · (1 + 1 / (spread₁ + spread₂)) / 2 / 32768`.  Everything is stated on the extended reals, with the
  program's own float literals kept as the words they are.
-/
import Idealize.ShloMosaic.PureOps.Ideal
import Idealize.ShloMosaic.Lib.ValueIdx

noncomputable section

namespace Cert.CenterLoss

open Idealize.ShloMosaic Idealize.ShloMosaic.ValueIdx

/-- The features: 32768 sample rows of 2048 entries. -/
abbrev SFeat : Shape := ⟨2, ![32768, 2048]⟩
/-- One label word per sample row. -/
abbrev SLab : Shape := ⟨1, ![32768]⟩
/-- The three class centers, 2048 entries each. -/
abbrev SCen : Shape := ⟨2, ![3, 2048]⟩

/-- The class a label word names: its value mod 3 (a label in range is its own class). -/
def cls (w : BitVec 32) : Fin 3 := ⟨w.toNat % 3, Nat.mod_lt _ (by decide)⟩

/-- The squared distance of sample row `b` to the center of class `k`. -/
def sqDist (feat : FVec Ideal SFeat .f32) (cen : FVec Ideal SCen .f32) (b : Fin 32768) (k : Fin 3) : EReal :=
  ∑ d : Fin 2048, (feat (ix2 b d) - cen (ix2 k d)) * (feat (ix2 b d) - cen (ix2 k d))

/-- The squared distances of every row to the center `s` classes after its own (mod 3), summed over the rows:
    `s = 0` is the main term, `s = 1` and `s = 2` the two spread terms. -/
def total (feat : FVec Ideal SFeat .f32) (label : IVec SLab 32) (cen : FVec Ideal SCen .f32) (s : Fin 3) : EReal :=
  ∑ b : Fin 32768, sqDist feat cen b (cls (label (ix1 b)) + s)

/-- `main · (1 + 1 / spread)`, the literal one kept as its word. -/
def core (main spread : EReal) : EReal :=
  main * (Ideal.ofBits .f32 0x3F800000#32 + Ideal.div (Ideal.ofBits .f32 0x3F800000#32) spread)

/-- The loss: the core halved and divided by the number of rows, the two divisors the words `2.0` and `32768.0`. -/
def loss (feat : FVec Ideal SFeat .f32) (label : IVec SLab 32) (cen : FVec Ideal SCen .f32) : EReal :=
  Ideal.div (Ideal.div (core (total feat label cen 0) (total feat label cen 1 + total feat label cen 2))
    (Ideal.ofBits .f32 0x40000000#32)) (Ideal.ofBits .f32 0x47000000#32)

end Cert.CenterLoss

end
-- ==== Proof.Algebra.lean ====
/-
  The three laws that join the two programs' arithmetic, on the extended reals.
  (1) For rows of real numbers, `Σ f² − 2·Σ f·c + Σ c²  =  Σ (f − c)²`.
  (2) Of three values weighted by the indicator of one class, the sum is the value of that class.
  (3) Multiplying by `2⁻¹⁶` is dividing by 2 and then by 32768, for every extended real.
-/
import Idealize.ShloMosaic.PureOps.Ideal
import Mathlib.Tactic.Ring
import Mathlib.Tactic.FinCases
import Mathlib.Tactic.NormNum

noncomputable section

namespace Cert.CenterLoss

open Idealize.ShloMosaic

/-- The word `2.0` denotes the real `2`. -/
theorem ofBits_two : Ideal.ofBits .f32 0x40000000#32 = ((2 : ℝ) : EReal) := by
  simp [Ideal.ofBits, Ideal.ieee, -EReal.coe_mul]; norm_num

/-- The word `32768.0` denotes the real `32768`. -/
theorem ofBits_32768 : Ideal.ofBits .f32 0x47000000#32 = ((32768 : ℝ) : EReal) := by
  simp [Ideal.ofBits, Ideal.ieee, -EReal.coe_mul]; norm_num

/-- The word `2⁻¹⁶` denotes the real `1 / 65536`. -/
theorem ofBits_inv65536 : Ideal.ofBits .f32 0x37800000#32 = ((1 / 65536 : ℝ) : EReal) := by
  simp [Ideal.ofBits, Ideal.ieee, -EReal.coe_mul]; norm_num

/-- A finite sum of real numbers, taken in the extended reals, is the real sum. -/
private theorem coe_sum {n : ℕ} (g : Fin n → ℝ) :
    (∑ d, ((g d : ℝ) : EReal)) = ((∑ d, g d : ℝ) : EReal) := by
  induction (Finset.univ : Finset (Fin n)) using Finset.induction_on with
  | empty => simp
  | insert a s ha ih => rw [Finset.sum_insert ha, Finset.sum_insert ha, ih, EReal.coe_add]

/-- The squared distance expanded: for real rows `f`, `c`, `(Σ f·f − 2·Σ f·c) + Σ c·c = Σ (f − c)·(f − c)`
    (the literal two kept as its word). -/
theorem sq_expand {n : ℕ} (f c : Fin n → EReal) (hf : ∀ d, ∃ x : ℝ, f d = (x : EReal)) (hc : ∀ d, ∃ x : ℝ, c d = (x : EReal)) :
    ((∑ d, f d * f d) - Ideal.ofBits .f32 0x40000000#32 * ∑ d, f d * c d) + ∑ d, c d * c d
      = ∑ d, (f d - c d) * (f d - c d) := by
  -- name the real entries of both rows, and read every term as the image of a real number
  choose x hx using hf
  choose y hy using hc
  obtain rfl : f = fun d => ((x d : ℝ) : EReal) := funext hx
  obtain rfl : c = fun d => ((y d : ℝ) : EReal) := funext hy
  rw [ofBits_two]
  simp only [← EReal.coe_mul, ← EReal.coe_sub, coe_sum, ← EReal.coe_add]
  -- now both sides are images of real numbers: the binomial identity, summed termwise
  congr 1
  rw [Finset.mul_sum, ← Finset.sum_sub_distrib, ← Finset.sum_add_distrib]
  exact Finset.sum_congr rfl fun d _ => by ring

/-- Three values weighted by the indicator of class `k`, read `j` classes further (mod 3): the value at `k + j`. -/
theorem pick (k j : Fin 3) (s : Fin 3 → EReal) :
    ((if k = 0 then (1 : EReal) else 0) * s (0 + j) + (if k = 1 then (1 : EReal) else 0) * s (1 + j))
      + (if k = 2 then (1 : EReal) else 0) * s (2 + j) = s (k + j) := by
  -- nine cases; in each exactly one indicator is one, and `0 * x = 0`, `1 * x = x` at the infinities too
  fin_cases k <;> fin_cases j <;> simp

/-- Times the word `2⁻¹⁶` is divided by the word `2.0` and then by the word `32768.0`, on every extended real. -/
theorem scale_eq (X : EReal) :
    X * Ideal.ofBits .f32 0x37800000#32
      = Ideal.div (Ideal.div X (Ideal.ofBits .f32 0x40000000#32)) (Ideal.ofBits .f32 0x47000000#32) := by
  -- each division by a nonzero real is the product with its reciprocal; then `(1/2)·(1/32768) = 1/65536`
  rw [ofBits_inv65536, ofBits_two, ofBits_32768,
    Ideal.div_coe (by norm_num : (2 : ℝ) ≠ 0), Ideal.div_coe (by norm_num : (32768 : ℝ) ≠ 0),
    mul_assoc, ← EReal.coe_mul]
  congr 2
  norm_num

end Cert.CenterLoss

end
-- ==== Proof.KerTail.lean ====
/-
  The lines after the region.

  The output array has one 8 × 128 block per tile; the host keeps row 0, columns 0 to 2 of each block (a reshape to
  [32, 8, 128], a slice, a reshape to [32, 3]), sums the 32 tiles' entries column by column into three totals, and closes
  with `total₀ · (1 + 1 / (total₁ + total₂)) · 2⁻¹⁶`.
-/
import proofs.«410918_j51951924413098_3_alg».proof.Proof.Gen.KernelIdeal.Frame
import proofs.«410918_j51951924413098_3_alg».proof.Proof.Spec
import proofs.«410918_j51951924413098_3_alg».proof.Proof.Algebra
import Idealize.ShloMosaic.Lib.Pipeline.Value
import Idealize.ShloMosaic.Lib.StableHlo.Run
import Idealize.ShloMosaic.Lib.IdealHost
import Idealize.ShloMosaic.Lib.ValueIdx
import Idealize.ShloMosaic.PureOps.Ideal.Laws

set_option maxRecDepth 16384

noncomputable section

namespace Cert.KernelIdeal.KerValue

open Cert.KernelIdeal Cert.KernelIdeal.Gen Idealize.ShloMosaic Idealize.ShloMosaic.TcCoe Idealize.ShloMosaic.Tactic
open Idealize.ShloMosaic.ValueIdx Idealize.SL.Sem Idealize.ShloMosaic.StableHlo

section Generic

variable {F : FTy → Type} [FloatOps F]

/-- The three column totals of the tiles' first rows. -/
def totals (out : FVec F S256x128 .f32) : FVec F S3 .f32 :=
  let groups : FVec F S32x8x128 .f32 := shapeCast S32x8x128 out Facts₀.shapeCasts_S256x128_S32x8x128
  let firstRows : FVec F S32x1x3 .f32 := extractStridedSlice S32x1x3 ![0, 0, 0] groups Facts₀.slices_S32x8x128_S32x1x3_0_0_0
  let partials : FVec F S32x3 .f32 := shapeCast S32x3 firstRows Facts₀.shapeCasts_S32x1x3_S32x3
  Host.reduceAdd partials (constant S_ .f32 0x00000000#32) Facts₀.reducesTo_S32x3_S3_d0 Facts₀.h_S_

/-- The lines after the region, as one function of the output array. -/
def tail (out : FVec F S256x128 .f32) : FVec F S_ .f32 :=
  let t0 : FVec F S_ .f32 := shapeCast S_ (extractStridedSlice S1 ![0] (totals out) Facts₀.slices_S3_S1_0) Facts₀.shapeCasts_S1_S_
  let t1 : FVec F S_ .f32 := shapeCast S_ (extractStridedSlice S1 ![1] (totals out) Facts₀.slices_S3_S1_1) Facts₀.shapeCasts_S1_S_
  let t2 : FVec F S_ .f32 := shapeCast S_ (extractStridedSlice S1 ![2] (totals out) Facts₀.slices_S3_S1_2) Facts₀.shapeCasts_S1_S_
  mulf (mulf t0 (addf (constant S_ .f32 0x3F800000#32) (Host.divf (constant S_ .f32 0x3F800000#32) (addf t1 t2))))
    (constant S_ .f32 0x37800000#32)

variable (m : (ℓ : Loc nD τ sig) → Buf (Elt F) ℓ)

/-- After the run the result buffer holds the tail of the pipeline's output array. -/
theorem tail_value (c : Dev nD) :
    Pipeline.afterTail₀ cfgs (dats m) 0 (V0 m) [hostOps1] c main_v22 = tail ((dats m 0 c).arrAt 4 cfg0.N) := by
  unfold Pipeline.afterTail₀
  show StableHlo.after hostOps1 _ (Proc.devRef .tc main_v22) = _
  after_results
  exact congrArg tail (Pipeline.withArrays_arr spec0 launch0.win.arr_inj c (V0 m c) (fun w => (dats m 0 c).arrAt w cfg0.N) 4)

end Generic

/-! ## The tail read on the extended reals -/

section AtIdeal

open Cert.CenterLoss

/-- Column `j` of the tiles' first rows, summed over the 32 tiles. -/
def colSum (out : FVec Ideal S256x128 .f32) (j : Fin 3) : EReal :=
  ∑ t : Fin 32, out (ix2 (⟨8 * t.val, by have := t.isLt; omega⟩ : Fin 256) (j.castLE (by decide) : Fin 128))

/-- The kept entries: tile `t`, column `j` is entry `(8·t, j)` of the output array (the first reshape splits the row index
    as `8·t + 0`, the slice keeps row 0 and columns below 3, the second reshape drops the unit axis). -/
theorem partials_apply (out : FVec Ideal S256x128 .f32) (t : Fin 32) (j : Fin 3) :
    shapeCast S32x3 (extractStridedSlice S32x1x3 ![0, 0, 0] (shapeCast S32x8x128 out Facts₀.shapeCasts_S256x128_S32x8x128)
        Facts₀.slices_S32x8x128_S32x1x3_0_0_0) Facts₀.shapeCasts_S32x1x3_S32x3 (ix2 t j)
      = out (ix2 (⟨8 * t.val, by have := t.isLt; omega⟩ : Fin 256) (j.castLE (by decide) : Fin 128)) := by
  rw [shapeCast_apply _ Facts₀.shapeCasts_S32x1x3_S32x3 (ix2 t j) (ix3 t (0 : Fin 1) j) (by
    rw [Shape.rowMajor_val_three, Shape.rowMajor_val_two]
    show (t.val * 1 + 0) * 3 + j.val = t.val * 3 + j.val
    omega)]
  rw [extractStridedSlice_apply ![0, 0, 0] _ Facts₀.slices_S32x8x128_S32x1x3_0_0_0 (ix3 t (0 : Fin 1) j)
    (ix3 t (0 : Fin 8) (j.castLE (by decide) : Fin 128)) (fun a => by
      match a with
      | ⟨0, _⟩ => show t.val = 0 + t.val; omega
      | ⟨1, _⟩ => show 0 = 0 + 0; rfl
      | ⟨2, _⟩ => show j.val = 0 + j.val; omega)]
  rw [shapeCast_apply _ Facts₀.shapeCasts_S256x128_S32x8x128 (ix3 t (0 : Fin 8) (j.castLE (by decide) : Fin 128))
    (ix2 (⟨8 * t.val, by have := t.isLt; omega⟩ : Fin 256) (j.castLE (by decide) : Fin 128)) (by
    rw [Shape.rowMajor_val_two, Shape.rowMajor_val_three]
    show 8 * t.val * 128 + j.val = (t.val * 8 + 0) * 128 + j.val
    omega)]

/-- The row axis of the [32, 3] table reduces to the three totals. -/
theorem reduces_rows : S32x3.Reduces [0] S3 := by decide

/-- A total is the column's sum over the tiles (the sum starts from the word zero). -/
theorem totals_apply (out : FVec Ideal S256x128 .f32) (j : Fin 3) : totals (F := Ideal) out (ix1 j) = colSum out j := by
  unfold totals
  dsimp only
  rw [hostReduceAdd_apply, Ideal.hostReduceAdd_single Facts₀.reducesTo_S32x3_S3_d0 reduces_rows]
  rw [show (constant (F := Ideal) S_ .f32 0x00000000#32) (Shape.Idx.first Facts₀.h_S_) = 0 from Ideal.ofBits_zero_f32, zero_add]
  unfold colSum
  show (∑ t : Fin 32, _) = _
  refine Finset.sum_congr rfl fun t _ => ?_
  have e : reduces_rows.lift (ix1 j) t = ix2 t j := by
    funext a; apply Fin.ext
    match a with
    | ⟨0, _⟩ => rfl
    | ⟨1, _⟩ => rfl
  rw [e]
  exact partials_apply out t j

/-- One total taken out as a scalar: the slice of length one at `k`, reshaped to rank 0. -/
theorem scalar_apply (v : FVec Ideal S3 .f32) (k : Fin 3) (h : S3.Slices ![k.val] S1) (i : S_.Idx) :
    shapeCast S_ (extractStridedSlice S1 ![k.val] v h) Facts₀.shapeCasts_S1_S_ i = v (ix1 k) := by
  rw [shapeCast_apply _ Facts₀.shapeCasts_S1_S_ i (ix1 (0 : Fin 1)) (by rw [Shape.rowMajor_val_one]; rfl)]
  exact extractStridedSlice_apply ![k.val] v h (ix1 (0 : Fin 1)) (ix1 k) (fun a => by
    match a with
    | ⟨0, _⟩ => show k.val = k.val + 0; omega)

/-- The tail is the loss formula over the three column sums: the core, halved and divided by the number of rows. -/
theorem tail_apply (out : FVec Ideal S256x128 .f32) :
    tail (F := Ideal) out = fun _ =>
      Ideal.div (Ideal.div (core (colSum out 0) (colSum out 1 + colSum out 2)) (Ideal.ofBits .f32 0x40000000#32))
        (Ideal.ofBits .f32 0x47000000#32) := by
  funext i
  unfold tail
  show (shapeCast S_ (extractStridedSlice S1 ![0] (totals out) Facts₀.slices_S3_S1_0) Facts₀.shapeCasts_S1_S_ i
      * (Ideal.ofBits .f32 0x3F800000#32 + Ideal.div (Ideal.ofBits .f32 0x3F800000#32)
          (shapeCast S_ (extractStridedSlice S1 ![1] (totals out) Facts₀.slices_S3_S1_1) Facts₀.shapeCasts_S1_S_ i
            + shapeCast S_ (extractStridedSlice S1 ![2] (totals out) Facts₀.slices_S3_S1_2) Facts₀.shapeCasts_S1_S_ i)))
      * Ideal.ofBits .f32 0x37800000#32 = _
  have e0 : shapeCast S_ (extractStridedSlice S1 ![0] (totals out) Facts₀.slices_S3_S1_0) Facts₀.shapeCasts_S1_S_ i
      = totals out (ix1 0) := scalar_apply (totals out) 0 Facts₀.slices_S3_S1_0 i
  have e1 : shapeCast S_ (extractStridedSlice S1 ![1] (totals out) Facts₀.slices_S3_S1_1) Facts₀.shapeCasts_S1_S_ i
      = totals out (ix1 1) := scalar_apply (totals out) 1 Facts₀.slices_S3_S1_1 i
  have e2 : shapeCast S_ (extractStridedSlice S1 ![2] (totals out) Facts₀.slices_S3_S1_2) Facts₀.shapeCasts_S1_S_ i
      = totals out (ix1 2) := scalar_apply (totals out) 2 Facts₀.slices_S3_S1_2 i
  rw [e0, e1, e2, totals_apply, totals_apply, totals_apply]
  exact scale_eq _

end AtIdeal

end Cert.KernelIdeal.KerValue

end
-- ==== Proof.KerPayload.lean ====
/-
  The kernel body's arithmetic, read at an index, over any four input blocks.

  For row `r` of a tile and class `k` the body forms `(Σ_d x² − 2·Σ_d x·cT[d, k]) + c2[k]`: the row's squared norm from a
  lane sum, the inner product with the class's column from the matrix product into a zero accumulator, and the class's
  squared norm from the third operand.  The label, clamped into [0, 2], selects by three 0/1 masks which class's value
  goes to each of three running sums: the own class, the next and the one after (mod 3).  Each of the three stored
  values is the sum over the tile's 1024 rows of the selected value.
-/
import proofs.«410918_j51951924413098_3_alg».proof.Proof.Gen.KernelIdeal.Skeleton
import proofs.«410918_j51951924413098_3_alg».proof.Proof.Spec
import proofs.«410918_j51951924413098_3_alg».proof.Proof.Algebra
import Idealize.ShloMosaic.PureOps.Ideal.Laws
import Idealize.ShloMosaic.Lib.Pipeline.Value
import Idealize.ShloMosaic.Lib.ValueLayout

noncomputable section

namespace Cert.KernelIdeal.KerValue

open Cert.KernelIdeal Cert.KernelIdeal.Gen Idealize.ShloMosaic Idealize.ShloMosaic.ValueIdx Cert.CenterLoss

/-- Row `r` of a tile against class `k`, as the body computes it from the feature block `x0`, the padded transposed
    centers `x2` and the padded squared norms `x3`. -/
def rowSq (x0 : FVec Ideal S1024x2048 .f32) (x2 : FVec Ideal S2048x128 .f32) (x3 : FVec Ideal S1x128 .f32)
    (r : Fin 1024) (k : Fin 3) : EReal :=
  ((∑ d : Fin 2048, x0 (ix2 r d) * x0 (ix2 r d))
      - Ideal.ofBits .f32 0x40000000#32 * ∑ d : Fin 2048, x0 (ix2 r d) * x2 (ix2 d (k.castLE (by decide))))
    + x3 (ix2 0 (k.castLE (by decide)))

/-! ## The matrix product at an index

The product's dimension numbers contract the left operand's axis 1 with the right operand's axis 0; at output index
`(r, c)` and contraction coordinate `d` the operands are read at `(r, d)` and `(d, c)`. -/

/-- The left operand's row coordinate is the output's. -/
private theorem lhs_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl

/-- The left operand's column coordinate is the contraction coordinate. -/
private theorem lhs_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q

/-- The right operand's row coordinate is the contraction coordinate. -/
private theorem rhs_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q

/-- The right operand's column coordinate is the output's. -/
private theorem rhs_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- The matrix product into the zero accumulator, at `(r, c)`: the inner product of row `r` and column `c`. -/
private theorem matmul_at (a : FVec Ideal S1024x2048 .f32) (b : FVec Ideal S2048x128 .f32) (r : Fin 1024) (c : Fin 128) :
    matmul dot_S1024x2048_S2048x128_S1024x128_1_0_0_1_n_n none a b (constant (F := Ideal) S1024x128 .f32 0x00000000#32) (ix2 r c)
      = ∑ d : Fin 2048, a (ix2 r d) * b (ix2 d c) := by
  refine (Ideal.matmul_constant_zero_apply dot_S1024x2048_S2048x128_S1024x128_1_0_0_1_n_n none a b (ix2 r c)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r c)
      ((contrEquiv1 dot_S1024x2048_S2048x128_S1024x128_1_0_0_1_n_n 2048 rfl rfl).symm k) = ix2 r k :=
    funext fun ax => Fin.ext (by
      match ax with
      | ⟨0, _⟩ => exact lhs_0 _ _
      | ⟨1, _⟩ => exact (lhs_1 _ _).trans hk)
  have er : dot_S1024x2048_S2048x128_S1024x128_1_0_0_1_n_n.rhsIdx (ix2 r c)
      ((contrEquiv1 dot_S1024x2048_S2048x128_S1024x128_1_0_0_1_n_n 2048 rfl rfl).symm k) = ix2 k c :=
    funext fun ax => Fin.ext (by
      match ax with
      | ⟨0, _⟩ => exact (rhs_0 _ _).trans hk
      | ⟨1, _⟩ => exact rhs_1 _ _)
  rw [el, er]

/-! ## The two sums and the layout operations at an index -/

/-- The lane sum of a tile at row `r`: the sum over the row's 2048 entries. -/
private theorem rowSum_at (v : FVec Ideal S1024x2048 .f32) (r : Fin 1024) :
    multiReduction (F := Ideal) .add [1] S1024 v 0x00000000#32 reduces_S1024x2048_S1024 (.inl rfl) rfl (ix1 r)
      = ∑ d : Fin 2048, v (ix2 r d) := by
  refine (Ideal.multiReduction_add_single v 0x00000000#32 reduces_S1024x2048_S1024 (.inl rfl) rfl (ix1 r)).trans ?_
  refine Finset.sum_congr rfl fun d _ => congrArg v (funext fun ax => Fin.ext ?_)
  match ax with
  | ⟨0, _⟩ => rfl
  | ⟨1, _⟩ => rfl

/-- The column sum of a one-column tile, cast to a one-by-one value: the sum over the 1024 rows. -/
private theorem colSum_at (v : FVec Ideal S1024x1 .f32) :
    shapeCast S1x1 (multiReduction (F := Ideal) .add [0] S1 v 0x00000000#32 reduces_S1024x1_S1 (.inl rfl) rfl) shapeCasts_S1_S1x1
        (ix2 0 0)
      = ∑ r : Fin 1024, v (ix2 r 0) := by
  refine (shapeCast_a_1a_apply _ shapeCasts_S1_S1x1 0 0).trans ?_
  refine (Ideal.multiReduction_add_single v 0x00000000#32 reduces_S1024x1_S1 (.inl rfl) rfl (ix1 0)).trans ?_
  refine Finset.sum_congr rfl fun d _ => congrArg v (funext fun ax => Fin.ext ?_)
  match ax with
  | ⟨0, _⟩ => rfl
  | ⟨1, _⟩ => rfl

/-- A row vector made a one-column tile reads its row. -/
private theorem col_at (v : FVec Ideal S1024 .f32) (r : Fin 1024) :
    shapeCast S1024x1 v shapeCasts_S1024_S1024x1 (ix2 r 0) = v (ix1 r) :=
  shapeCast_apply v shapeCasts_S1024_S1024x1 _ _ (by
    rw [Shape.rowMajor_val_two, Shape.rowMajor_val_one]
    show r.val = r.val * 1 + 0
    omega)

/-- A one-column tile spread over three columns reads its row. -/
private theorem spread_at (v : FVec Ideal S1024x1 .f32) (r : Fin 1024) (k : Fin 3) :
    broadcastTo S1024x3 v broadcasts_S1024x1_S1024x3 (ix2 r k) = v (ix2 r 0) := by
  refine broadcastTo_apply v broadcasts_S1024x1_S1024x3 (ix2 r k) (ix2 r 0) fun ax => ?_
  match ax with
  | ⟨0, _⟩ => rfl
  | ⟨1, _⟩ => rfl

/-- The first three of a tile's 128 columns. -/
private theorem cols3_at (v : FVec Ideal S1024x128 .f32) (r : Fin 1024) (k : Fin 3) :
    extractStridedSlice S1024x3 ![0, 0] v slices_S1024x128_o0_0_S1024x3 (ix2 r k) = v (ix2 r (k.castLE (by decide))) := by
  refine extractStridedSlice_apply ![0, 0] v slices_S1024x128_o0_0_S1024x3 (ix2 r k) (ix2 r (k.castLE (by decide))) fun ax => ?_
  match ax with
  | ⟨0, _⟩ => exact (Nat.zero_add _).symm
  | ⟨1, _⟩ => exact (Nat.zero_add _).symm

/-- The first three of a row's 128 entries. -/
private theorem row3_at (v : FVec Ideal S1x128 .f32) (k : Fin 3) :
    extractStridedSlice S1x3 ![0, 0] v slices_S1x128_o0_0_S1x3 (ix2 0 k) = v (ix2 0 (k.castLE (by decide))) := by
  refine extractStridedSlice_apply ![0, 0] v slices_S1x128_o0_0_S1x3 (ix2 0 k) (ix2 0 (k.castLE (by decide))) fun ax => ?_
  match ax with
  | ⟨0, _⟩ => exact (Nat.zero_add _).symm
  | ⟨1, _⟩ => exact (Nat.zero_add _).symm

/-- One of a three-column tile's columns, as a one-column tile. -/
private theorem col0_at (v : FVec Ideal S1024x3 .f32) (r : Fin 1024) :
    extractStridedSlice S1024x1 ![0, 0] v slices_S1024x3_o0_0_S1024x1 (ix2 r 0) = v (ix2 r 0) := by
  refine extractStridedSlice_apply ![0, 0] v slices_S1024x3_o0_0_S1024x1 (ix2 r 0) (ix2 r 0) fun ax => ?_
  match ax with
  | ⟨0, _⟩ => exact (Nat.zero_add _).symm
  | ⟨1, _⟩ => rfl

private theorem col1_at (v : FVec Ideal S1024x3 .f32) (r : Fin 1024) :
    extractStridedSlice S1024x1 ![0, 1] v slices_S1024x3_o0_1_S1024x1 (ix2 r 0) = v (ix2 r 1) := by
  refine extractStridedSlice_apply ![0, 1] v slices_S1024x3_o0_1_S1024x1 (ix2 r 0) (ix2 r 1) fun ax => ?_
  match ax with
  | ⟨0, _⟩ => exact (Nat.zero_add _).symm
  | ⟨1, _⟩ => rfl

private theorem col2_at (v : FVec Ideal S1024x3 .f32) (r : Fin 1024) :
    extractStridedSlice S1024x1 ![0, 2] v slices_S1024x3_o0_2_S1024x1 (ix2 r 0) = v (ix2 r 2) := by
  refine extractStridedSlice_apply ![0, 2] v slices_S1024x3_o0_2_S1024x1 (ix2 r 0) (ix2 r 2) fun ax => ?_
  match ax with
  | ⟨0, _⟩ => exact (Nat.zero_add _).symm
  | ⟨1, _⟩ => rfl

/-! ## The label: the clamp and the three masks -/

/-- A word below 3 is one of the three class words. -/
private theorem word_cases (w : BitVec 32) (hw : w.toNat < 3) : w = 0#32 ∨ w = 1#32 ∨ w = 2#32 := by
  have h : w.toNat = 0 ∨ w.toNat = 1 ∨ w.toNat = 2 := by omega
  rcases h with h | h | h
  · exact .inl (BitVec.eq_of_toNat_eq h)
  · exact .inr (.inl (BitVec.eq_of_toNat_eq h))
  · exact .inr (.inr (BitVec.eq_of_toNat_eq h))

/-- Clamping a label that is already in `[0, 2]` leaves it as it is. -/
private theorem clamp_eq (w : BitVec 32) (hw : w.toNat < 3) : IntOp.minsi 2#32 (IntOp.maxsi 0#32 w) = w := by
  rcases word_cases w hw with rfl | rfl | rfl <;> decide

/-- The 0/1 word of an equality test, widened and converted, is the indicator of the equality. -/
private theorem bit_eq (w c : BitVec 32) :
    FloatOps.sitofp (F := Ideal) .f32 (BitVec.setWidth 32 (IntOp.cmpi .eq w c)) = if w = c then (1 : EReal) else 0 := by
  show (((BitVec.setWidth 32 (BitVec.ofBool (w == c))).toInt : ℝ) : EReal) = _
  by_cases h : w = c
  · rw [if_pos h, beq_iff_eq.mpr h]
    show (((1 : ℤ) : ℝ) : EReal) = 1
    simp
  · rw [if_neg h, beq_eq_false_iff_ne.mpr h]
    show (((0 : ℤ) : ℝ) : EReal) = 0
    simp

/-- A label word below 3 is the `k`-th class word exactly when its class is `k`. -/
private theorem word_eq_iff (w : BitVec 32) (hw : w.toNat < 3) (k : Fin 3) : w = BitVec.ofNat 32 k.val ↔ cls w = k := by
  rcases word_cases w hw with rfl | rfl | rfl <;> revert k <;> decide

variable (x0 : FVec Ideal S1024x2048 .f32) (x1 : IVec S1024x1 32) (x2 : FVec Ideal S2048x128 .f32) (x3 : FVec Ideal S1x128 .f32)

/-- The clamped label at a row. -/
private theorem pay9_at (i : S1024x1.Idx) : k0_pay9 (F := Ideal) x1 i = IntOp.minsi 2#32 (IntOp.maxsi 0#32 (x1 i)) := by
  unfold k0_pay9
  show IntOp.minsi 2#32 (IntOp.maxsi 0#32 (shapeCast S1024x1 x1 shapeCasts_S1024x1_S1024x1 i)) = _
  rw [shapeCast_self]

/-- The first mask at a row: 1 where the label's class is 0. -/
private theorem pay10_at (r : Fin 1024) (hw : (x1 (ix2 r 0)).toNat < 3) :
    k0_pay10 (F := Ideal) x1 (ix2 r 0) = if cls (x1 (ix2 r 0)) = 0 then (1 : EReal) else 0 := by
  unfold k0_pay10
  show FloatOps.sitofp (F := Ideal) .f32 (BitVec.setWidth 32 (IntOp.cmpi .eq (k0_pay9 (F := Ideal) x1 (ix2 r 0)) 0#32)) = _
  rw [pay9_at, clamp_eq _ hw, bit_eq]
  exact if_congr (word_eq_iff _ hw 0) rfl rfl

/-- The second mask at a row: 1 where the label's class is 1. -/
private theorem pay11_at (r : Fin 1024) (hw : (x1 (ix2 r 0)).toNat < 3) :
    k0_pay11 (F := Ideal) x1 (ix2 r 0) = if cls (x1 (ix2 r 0)) = 1 then (1 : EReal) else 0 := by
  unfold k0_pay11
  show FloatOps.sitofp (F := Ideal) .f32 (BitVec.setWidth 32 (IntOp.cmpi .eq (k0_pay9 (F := Ideal) x1 (ix2 r 0)) 1#32)) = _
  rw [pay9_at, clamp_eq _ hw, bit_eq]
  exact if_congr (word_eq_iff _ hw 1) rfl rfl

/-- The third mask at a row: 1 where the label's class is 2. -/
private theorem pay12_at (r : Fin 1024) (hw : (x1 (ix2 r 0)).toNat < 3) :
    k0_pay12 (F := Ideal) x1 (ix2 r 0) = if cls (x1 (ix2 r 0)) = 2 then (1 : EReal) else 0 := by
  unfold k0_pay12
  show FloatOps.sitofp (F := Ideal) .f32 (BitVec.setWidth 32 (IntOp.cmpi .eq (k0_pay9 (F := Ideal) x1 (ix2 r 0)) 2#32)) = _
  rw [pay9_at, clamp_eq _ hw, bit_eq]
  exact if_congr (word_eq_iff _ hw 2) rfl rfl

/-! ## The per-row value and the three stored sums -/

/-- The body's value for row `r` and class `k`. -/
private theorem pay5_at (r : Fin 1024) (k : Fin 3) : k0_pay5 (F := Ideal) x0 x2 x3 (ix2 r k) = rowSq x0 x2 x3 r k := by
  unfold k0_pay5 rowSq
  rw [shapeCast_self, shapeCast_self]
  show (broadcastTo S1024x3 (shapeCast S1024x1 (multiReduction (F := Ideal) .add [1] S1024 (mulf x0 x0) 0x00000000#32
            reduces_S1024x2048_S1024 (.inl rfl) rfl) shapeCasts_S1024_S1024x1) broadcasts_S1024x1_S1024x3 (ix2 r k)
        - Ideal.ofBits .f32 0x40000000#32
          * extractStridedSlice S1024x3 ![0, 0]
              (matmul dot_S1024x2048_S2048x128_S1024x128_1_0_0_1_n_n none x0 x2 (constant (F := Ideal) S1024x128 .f32 0x00000000#32))
              slices_S1024x128_o0_0_S1024x3 (ix2 r k))
      + broadcastTo S1024x3 (extractStridedSlice S1x3 ![0, 0] x3 slices_S1x128_o0_0_S1x3) broadcasts_S1x3_S1024x3 (ix2 r k) = _
  rw [spread_at, col_at, rowSum_at, cols3_at, matmul_at, broadcastTo_1b_ab_apply, row3_at]
  rfl

/-- The value for the class of column 0, 1, 2 of the three-column tile. -/
private theorem pay6_at (r : Fin 1024) : k0_pay6 (F := Ideal) x0 x2 x3 (ix2 r 0) = rowSq x0 x2 x3 r 0 := by
  unfold k0_pay6
  exact (col0_at _ r).trans (pay5_at x0 x2 x3 r 0)

private theorem pay7_at (r : Fin 1024) : k0_pay7 (F := Ideal) x0 x2 x3 (ix2 r 0) = rowSq x0 x2 x3 r 1 := by
  unfold k0_pay7
  exact (col1_at _ r).trans (pay5_at x0 x2 x3 r 1)

private theorem pay8_at (r : Fin 1024) : k0_pay8 (F := Ideal) x0 x2 x3 (ix2 r 0) = rowSq x0 x2 x3 r 2 := by
  unfold k0_pay8
  exact (col2_at _ r).trans (pay5_at x0 x2 x3 r 2)

/-- The first stored value: the tile's rows against their own class. -/
theorem pay_own (hl : ∀ r : Fin 1024, (x1 (ix2 r 0)).toNat < 3) :
    k0_pay1 (F := Ideal) (k0_pay13 x0 x2 x3 x1) (ix2 0 0) = ∑ r : Fin 1024, rowSq x0 x2 x3 r (cls (x1 (ix2 r 0))) := by
  unfold k0_pay1
  refine (colSum_at _).trans (Finset.sum_congr rfl fun r _ => ?_)
  unfold k0_pay13
  show (k0_pay10 (F := Ideal) x1 (ix2 r 0) * k0_pay6 (F := Ideal) x0 x2 x3 (ix2 r 0)
        + k0_pay11 (F := Ideal) x1 (ix2 r 0) * k0_pay7 (F := Ideal) x0 x2 x3 (ix2 r 0))
      + k0_pay12 (F := Ideal) x1 (ix2 r 0) * k0_pay8 (F := Ideal) x0 x2 x3 (ix2 r 0) = _
  rw [pay10_at x1 r (hl r), pay11_at x1 r (hl r), pay12_at x1 r (hl r), pay6_at, pay7_at, pay8_at]
  exact (pick (cls (x1 (ix2 r 0))) 0 (rowSq x0 x2 x3 r)).trans (congrArg _ (add_zero _))

/-- The second stored value: the tile's rows against the class after their own. -/
theorem pay_next (hl : ∀ r : Fin 1024, (x1 (ix2 r 0)).toNat < 3) :
    k0_pay2 (F := Ideal) (k0_pay6 x0 x2 x3) (k0_pay7 x0 x2 x3) (k0_pay8 x0 x2 x3) (k0_pay10 x1) (k0_pay11 x1) (k0_pay12 x1) (ix2 0 0)
      = ∑ r : Fin 1024, rowSq x0 x2 x3 r (cls (x1 (ix2 r 0)) + 1) := by
  unfold k0_pay2
  refine (colSum_at _).trans (Finset.sum_congr rfl fun r _ => ?_)
  show (k0_pay10 (F := Ideal) x1 (ix2 r 0) * k0_pay7 (F := Ideal) x0 x2 x3 (ix2 r 0)
        + k0_pay11 (F := Ideal) x1 (ix2 r 0) * k0_pay8 (F := Ideal) x0 x2 x3 (ix2 r 0))
      + k0_pay12 (F := Ideal) x1 (ix2 r 0) * k0_pay6 (F := Ideal) x0 x2 x3 (ix2 r 0) = _
  rw [pay10_at x1 r (hl r), pay11_at x1 r (hl r), pay12_at x1 r (hl r), pay6_at, pay7_at, pay8_at]
  exact pick (cls (x1 (ix2 r 0))) 1 (rowSq x0 x2 x3 r)

/-- The third stored value: the tile's rows against the class two after their own. -/
theorem pay_after (hl : ∀ r : Fin 1024, (x1 (ix2 r 0)).toNat < 3) :
    k0_pay3 (F := Ideal) (k0_pay6 x0 x2 x3) (k0_pay7 x0 x2 x3) (k0_pay8 x0 x2 x3) (k0_pay10 x1) (k0_pay11 x1) (k0_pay12 x1) (ix2 0 0)
      = ∑ r : Fin 1024, rowSq x0 x2 x3 r (cls (x1 (ix2 r 0)) + 2) := by
  unfold k0_pay3
  refine (colSum_at _).trans (Finset.sum_congr rfl fun r _ => ?_)
  show (k0_pay10 (F := Ideal) x1 (ix2 r 0) * k0_pay8 (F := Ideal) x0 x2 x3 (ix2 r 0)
        + k0_pay11 (F := Ideal) x1 (ix2 r 0) * k0_pay6 (F := Ideal) x0 x2 x3 (ix2 r 0))
      + k0_pay12 (F := Ideal) x1 (ix2 r 0) * k0_pay7 (F := Ideal) x0 x2 x3 (ix2 r 0) = _
  rw [pay10_at x1 r (hl r), pay11_at x1 r (hl r), pay12_at x1 r (hl r), pay6_at, pay7_at, pay8_at]
  exact pick (cls (x1 (ix2 r 0))) 2 (rowSq x0 x2 x3 r)

end Cert.KernelIdeal.KerValue

end
-- ==== Proof.KerBlocks.lean ====
/-
  The four input blocks at a grid point, read at an index off the argument arrays.

  Point `t` takes rows `1024·t … 1024·t + 1023` of the features and of the labels (the labels reshaped to one column);
  the whole of the centers transposed and padded with zero columns up to 128 (entry `[d, k]` is `centers[k, d]` for
  `k < 3`); and the whole one-row table of the centers' squared norms, padded likewise (entry `[0, k]` is
  `Σ_d centers[k, d]²` for `k < 3`).
-/
import proofs.«410918_j51951924413098_3_alg».proof.Proof.Gen.KernelIdeal.Frame
import Idealize.ShloMosaic.PureOps.Ideal.Laws
import Idealize.ShloMosaic.Lib.IdealHost
import Idealize.ShloMosaic.Lib.Pipeline.Value
import Idealize.ShloMosaic.Lib.ValueLayout
import Idealize.ShloMosaic.Lib.KernelVsHost

noncomputable section

namespace Cert.KernelIdeal.KerValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The three argument arrays as the launch finds them, at their literal types. -/
abbrev featArr (c : Dev nD) : FVec Ideal S32768x2048 .f32 := m ((c.tc : Thread nD τ).loc main_arg0)
abbrev labArr (c : Dev nD) : IVec S32768 32 := m ((c.tc : Thread nD τ).loc main_arg1)
abbrev cenArr (c : Dev nD) : FVec Ideal S3x2048 .f32 := m ((c.tc : Thread nD τ).loc main_arg2)

/-- The four input blocks at point `t`, at their literal types. -/
abbrev featBlk (c : Dev nD) (t : Fin cfg0.N) : FVec Ideal S1024x2048 .f32 := iblk m c 0 t
abbrev labBlk (c : Dev nD) (t : Fin cfg0.N) : IVec S1024x1 32 := iblk m c 1 t
abbrev cenTBlk (c : Dev nD) (t : Fin cfg0.N) : FVec Ideal S2048x128 .f32 := iblk m c 2 t
abbrev normBlk (c : Dev nD) (t : Fin cfg0.N) : FVec Ideal S1x128 .f32 := iblk m c 3 t

/-- Row `r` of tile `t` is row `1024·t + r` of the batch. -/
def tileRow (t : Fin cfg0.N) (r : Fin 1024) : Fin 32768 :=
  ⟨1024 * t.val + r.val, by have h : cfg0.N = 32 := N_0; have := t.isLt; have := r.isLt; omega⟩

/-! ## Where the blocks sit -/

/-- The block indices of the four input windows at every grid point: the features' and the labels' blocks move down the
    rows with the point, at column block 0; the centers' two tables are one block each, at (0, 0). -/
private theorem blockIndex : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The arrays the host operations make before the region, as terms of the argument arrays -/

/-- The labels as one column: the reshape of the label vector. -/
private theorem labCol_eq (c : Dev nD) :
    (V m c main_v0 : S32768x1.Idx → BitVec 32) = shapeCast S32768x1 (labArr m c) Gen.shapeCasts_S32768_S32768x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The centers' table as the kernel takes it: transposed, then padded on the right of each row with the converted
    integer zero up to 128 columns. -/
private theorem cenT_eq (c : Dev nD) : (V m c main_v2 : S2048x128.Idx → EReal) =
    pad S2048x128 ![0, 0] ![0, 125] ![0, 0] (transpose S2048x3 [1, 0] (cenArr m c) Gen.transposes_S3x2048_S2048x3_1_0)
      (sitofp (F := Ideal) .f32 (constantI S_ 32 0#32)) Gen.pads_S2048x3_S2048x128_000_01250 Gen.h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The squared norms' table: each center's entries squared and summed from zero, the three sums padded up to 128
    entries, laid as one row. -/
private theorem norm_eq (c : Dev nD) : (V m c main_v6 : S1x128.Idx → EReal) =
    shapeCast S1x128 (pad S128 ![0] ![125] ![0]
      (Host.reduceAdd (mulf (cenArr m c) (cenArr m c)) (constant (F := Ideal) S_ .f32 0x00000000#32) Gen.reducesTo_S3x2048_S3_d1 Gen.h_S_)
      (sitofp (F := Ideal) .f32 (constantI S_ 32 0#32)) Gen.pads_S3_S128_01250 Gen.h_S_) Gen.shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## Those terms read at an index -/

/-- Entry `(b, 0)` of a vector laid as one column is its entry `b`: both sit at row-major position `b`. -/
private theorem column_apply (x : IVec S32768 32) (i : S32768x1.Idx) (b : Fin 32768) (h : (i 0).val = b.val) :
    shapeCast S32768x1 x Gen.shapeCasts_S32768_S32768x1 i = x (ix1 b) := by
  refine shapeCast_apply x _ i (ix1 b) ?_
  rw [Shape.rowMajor_val_one, Shape.rowMajor_val_two]
  show b.val = (i 0).val * 1 + (i 1).val
  have h1 : (i 1).val < 1 := (i 1).isLt
  omega

/-- Entry `(d, k)` of the transposed and padded table, at a column `k < 3` (inside the unpadded part), is entry
    `(k, d)` of the table. -/
private theorem transposedPadded_apply (x : FVec Ideal S3x2048 .f32) (v : S_.Idx → EReal) (j : S2048x128.Idx) (k : Fin 3)
    (d : Fin 2048) (h0 : (j 0).val = d.val) (h1 : (j 1).val = k.val) :
    pad S2048x128 ![0, 0] ![0, 125] ![0, 0] (transpose S2048x3 [1, 0] x Gen.transposes_S3x2048_S2048x3_1_0) v
      Gen.pads_S2048x3_S2048x128_000_01250 Gen.h_S_ j = x (ix2 k d) := by
  refine (pad_apply_of_inside _ _ _ _ v Gen.pads_S2048x3_S2048x128_000_01250 Gen.h_S_ j (ix2 d k) ?_).trans ?_
  · intro a
    match a with
    | ⟨0, _⟩ => show (j 0).val = 0 + d.val * (0 + 1); omega
    | ⟨1, _⟩ => show (j 1).val = 0 + k.val * (0 + 1); omega
  · refine transpose_apply _ x Gen.transposes_S3x2048_S2048x3_1_0 (ix2 d k) (ix2 k d) ?_
    intro b
    match b with
    | ⟨0, _⟩ => rfl
    | ⟨1, _⟩ => rfl

/-- A row of the entrywise square summed from the zero word is the sum of the row's squares. -/
private theorem rowSquares_apply (x : FVec Ideal S3x2048 .f32) (k : Fin 3) :
    Host.reduceAdd (mulf x x) (constant (F := Ideal) S_ .f32 0x00000000#32) Gen.reducesTo_S3x2048_S3_d1 Gen.h_S_ (ix1 k)
      = ∑ d : Fin 2048, x (ix2 k d) * x (ix2 k d) := by
  have hr : S3x2048.Reduces [1] S3 := by decide
  refine (Ideal.hostReduceAdd_single Gen.reducesTo_S3x2048_S3_d1 hr (mulf x x)
    (constant (F := Ideal) S_ .f32 0x00000000#32 (Shape.Idx.first Gen.h_S_)) (ix1 k)).trans ?_
  rw [constant_apply, Ideal.ofBits_zero_f32, zero_add]
  refine Finset.sum_congr rfl fun d _ => ?_
  have e : hr.lift (ix1 k) d = ix2 k d := by
    funext a
    apply Fin.ext
    match a with
    | ⟨0, _⟩ => rfl
    | ⟨1, _⟩ => rfl
  rw [e]
  rfl

/-- Entry `(0, k)` of the one-row padded table, at `k < 3`, is entry `k` of the vector that was padded. -/
private theorem paddedRow_apply (y : S3.Idx → EReal) (v : S_.Idx → EReal) (j : S1x128.Idx) (k : Fin 3) (h1 : (j 1).val = k.val) :
    shapeCast S1x128 (pad S128 ![0] ![125] ![0] y v Gen.pads_S3_S128_01250 Gen.h_S_) Gen.shapeCasts_S128_S1x128 j = y (ix1 k) := by
  have hk : k.val < 128 := by have := k.isLt; omega
  refine (shapeCast_apply _ Gen.shapeCasts_S128_S1x128 j (ix1 (⟨k.val, hk⟩ : Fin 128)) ?_).trans ?_
  · rw [Shape.rowMajor_val_one, Shape.rowMajor_val_two]
    show k.val = (j 0).val * 128 + (j 1).val
    have h0 : (j 0).val < 1 := (j 0).isLt
    omega
  · refine pad_apply_of_inside _ _ _ y v Gen.pads_S3_S128_01250 Gen.h_S_ (ix1 (⟨k.val, hk⟩ : Fin 128)) (ix1 k) ?_
    intro a
    match a with
    | ⟨0, _⟩ => show k.val = 0 + k.val * (0 + 1); omega

/-! ## The four blocks -/

theorem featBlk_apply (c : Dev nD) (t : Fin cfg0.N) (r : Fin 1024) (d : Fin 2048) :
    featBlk m c t (ix2 r d) = featArr m c (ix2 (tileRow t r) d) := by
  obtain ⟨e0, e1, -⟩ := blockIndex t
  show V m c main_arg0 (((cfg0.win 0).blk t).view.emb (ix2 r d)) = m ((c.tc : Thread nD τ).loc main_arg0) _
  rw [V_main_arg0]
  refine congrArg _ (funext fun a => Fin.ext ?_)
  match a with
  | ⟨0, _⟩ => show win0_0.index t (0 : Fin 2) * 1024 + 1 * r.val = 1024 * t.val + r.val; omega
  | ⟨1, _⟩ => show win0_0.index t (1 : Fin 2) * 2048 + 1 * d.val = d.val; omega

theorem labBlk_apply (c : Dev nD) (t : Fin cfg0.N) (r : Fin 1024) :
    labBlk m c t (ix2 r 0) = labArr m c (ix1 (tileRow t r)) := by
  obtain ⟨-, -, e0, e1, -⟩ := blockIndex t
  show (V m c main_v0 : S32768x1.Idx → BitVec 32) (((cfg0.win 1).blk t).view.emb (ix2 r 0)) = _
  refine (congrFun (labCol_eq m c) _).trans ?_
  refine column_apply _ _ (tileRow t r) ?_
  show win0_1.index t (0 : Fin 2) * 1024 + 1 * r.val = 1024 * t.val + r.val
  omega

theorem cenTBlk_apply (c : Dev nD) (t : Fin cfg0.N) (d : Fin 2048) (k : Fin 3) :
    cenTBlk m c t (ix2 d (k.castLE (by decide))) = cenArr m c (ix2 k d) := by
  obtain ⟨-, -, -, -, e0, e1, -⟩ := blockIndex t
  show (V m c main_v2 : S2048x128.Idx → EReal) (((cfg0.win 2).blk t).view.emb (ix2 d (k.castLE (by decide)))) = _
  refine (congrFun (cenT_eq m c) _).trans ?_
  refine transposedPadded_apply _ _ _ k d ?_ ?_
  · show win0_2.index t (0 : Fin 2) * 2048 + 1 * d.val = d.val
    omega
  · show win0_2.index t (1 : Fin 2) * 128 + 1 * k.val = k.val
    omega

theorem normBlk_apply (c : Dev nD) (t : Fin cfg0.N) (k : Fin 3) :
    normBlk m c t (ix2 0 (k.castLE (by decide))) = ∑ d : Fin 2048, cenArr m c (ix2 k d) * cenArr m c (ix2 k d) := by
  obtain ⟨-, -, -, -, -, -, e0, e1⟩ := blockIndex t
  show (V m c main_v6 : S1x128.Idx → EReal) (((cfg0.win 3).blk t).view.emb (ix2 0 (k.castLE (by decide)))) = _
  refine (congrFun (norm_eq m c) _).trans ?_
  refine (paddedRow_apply _ _ _ k ?_).trans (rowSquares_apply (cenArr m c) k)
  show win0_3.index t (1 : Fin 2) * 128 + 1 * k.val = k.val
  omega

end Cert.KernelIdeal.KerValue

end
-- ==== Proof.TileSum.lean ====
/-
  A sum over the 32768 sample rows is the sum over the 32 tiles of the sum over a tile's 1024 rows: row `b` is row
  `r = b mod 1024` of tile `t = b div 1024`, and `(t, r) ↦ 1024·t + r` is a bijection.
-/
import Mathlib.Algebra.BigOperators.Fin
import Mathlib.Logic.Equiv.Fin.Basic
import Mathlib.Tactic.NormNum

namespace Cert.CenterLoss

/-- The sum tile by tile is the sum over all rows. -/
theorem sum_tiles {M : Type*} [AddCommMonoid M] (G : Fin 32768 → M) :
    ∑ t : Fin 32, ∑ r : Fin 1024, G ⟨1024 * t.val + r.val, by have := t.isLt; have := r.isLt; omega⟩
      = ∑ b : Fin 32768, G b := by
  rw [← Fintype.sum_prod_type (f := fun x : Fin 32 × Fin 1024 =>
    G ⟨1024 * x.1.val + x.2.val, by have := x.1.isLt; have := x.2.isLt; omega⟩)]
  refine Fintype.sum_equiv ((finProdFinEquiv (m := 32) (n := 1024)).trans (finCongr (by norm_num))) _ _ (fun x => ?_)
  refine congrArg G (Fin.ext ?_)
  simp only [Equiv.trans_apply, finCongr_apply, Fin.coe_cast, finProdFinEquiv_apply_val]
  omega

end Cert.CenterLoss
-- ==== Proof.KerValue.lean ====
/-
  The kernel's value: after the run the result buffer holds the center loss of the argument arrays.

  Tile `t`, row `r` is sample row `1024·t + r`.  On real entries the body's `(Σ x² − 2·Σ x·c) + Σ c²` for that row and a class
  is the squared distance of the sample to the class's center; the label's masks pick the own class, the next and the one
  after; so the three entries a tile leaves are the tile's partial sums of the three totals, the host's column sums over the
  32 tiles are the totals themselves, and the closing arithmetic is the loss.
-/
import proofs.«410918_j51951924413098_3_alg».proof.Proof.KerStored
import proofs.«410918_j51951924413098_3_alg».proof.Proof.KerArray
import proofs.«410918_j51951924413098_3_alg».proof.Proof.KerTail
import proofs.«410918_j51951924413098_3_alg».proof.Proof.KerPayload
import proofs.«410918_j51951924413098_3_alg».proof.Proof.KerBlocks
import proofs.«410918_j51951924413098_3_alg».proof.Proof.TileSum

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.CenterLoss
open Idealize.ShloMosaic.Pipeline (Dat)

variable (m : (ℓ : Loc nD τ sig) → Buf (Elt Ideal) ℓ) (ρ : Dev nD → PrngReg)

/-- On real entries, a tile row's value for class `k` as the body forms it is the squared distance of the sample to the
    center of class `k`. -/
theorem rowSq_tile (hf : ∀ (c : Dev nD) (i : S32768x2048.Idx), ∃ x : ℝ, featArr m c i = (x : EReal))
    (hc : ∀ (c : Dev nD) (i : S3x2048.Idx), ∃ x : ℝ, cenArr m c i = (x : EReal))
    (hl : ∀ (c : Dev nD) (i : S32768.Idx), (labArr m c i).toNat < 3)
    (c : Dev nD) (t : Fin cfg0.N) (r : Fin 1024) (k : Fin 3) :
    rowSq (featBlk m c t) (cenTBlk m c t) (normBlk m c t) r k = sqDist (featArr m c) (cenArr m c) (tileRow t r) k := by
  unfold rowSq sqDist
  rw [normBlk_apply m c t k]
  rw [Finset.sum_congr rfl (fun d _ => by rw [featBlk_apply m c t r d] :
      ∀ d ∈ (Finset.univ : Finset (Fin 2048)), featBlk m c t (ix2 r d) * featBlk m c t (ix2 r d)
        = featArr m c (ix2 (tileRow t r) d) * featArr m c (ix2 (tileRow t r) d)),
    Finset.sum_congr rfl (fun d _ => by rw [featBlk_apply m c t r d, cenTBlk_apply m c t d k] :
      ∀ d ∈ (Finset.univ : Finset (Fin 2048)), featBlk m c t (ix2 r d) * cenTBlk m c t (ix2 d (k.castLE (by decide)))
        = featArr m c (ix2 (tileRow t r) d) * cenArr m c (ix2 k d))]
  exact sq_expand (fun d => featArr m c (ix2 (tileRow t r) d)) (fun d => cenArr m c (ix2 k d))
    (fun d => hf c _) (fun d => hc c _)

/-- The labels of a tile are in range. -/
theorem labBlk_lt (hl : ∀ (c : Dev nD) (i : S32768.Idx), (labArr m c i).toNat < 3) (c : Dev nD) (t : Fin cfg0.N) (r : Fin 1024) :
    (labBlk m c t (ix2 r 0)).toNat < 3 := by
  rw [labBlk_apply m c t r]; exact hl c _

/-- Entry (0, 0) of the block tile `t` leaves: the tile's rows against their own class. -/
theorem blk_own (hf : ∀ (c : Dev nD) (i : S32768x2048.Idx), ∃ x : ℝ, featArr m c i = (x : EReal))
    (hc : ∀ (c : Dev nD) (i : S3x2048.Idx), ∃ x : ℝ, cenArr m c i = (x : EReal))
    (hl : ∀ (c : Dev nD) (i : S32768.Idx), (labArr m c i).toNat < 3)
    (c : Dev nD) (t : Fin cfg0.N) :
    outBlk m c t (ix2 0 0)
      = ∑ r : Fin 1024, sqDist (featArr m c) (cenArr m c) (tileRow t r) (cls (labArr m c (ix1 (tileRow t r)))) := by
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (ix2 0 0) = _
  rw [stored_own]
  refine (pay_own (featBlk m c t) (labBlk m c t) (cenTBlk m c t) (normBlk m c t) (labBlk_lt m hl c t)).trans ?_
  refine Finset.sum_congr rfl fun r _ => ?_
  rw [rowSq_tile m hf hc hl c t r, labBlk_apply m c t r]

/-- Entry (0, 1): the tile's rows against the class after their own. -/
theorem blk_next (hf : ∀ (c : Dev nD) (i : S32768x2048.Idx), ∃ x : ℝ, featArr m c i = (x : EReal))
    (hc : ∀ (c : Dev nD) (i : S3x2048.Idx), ∃ x : ℝ, cenArr m c i = (x : EReal))
    (hl : ∀ (c : Dev nD) (i : S32768.Idx), (labArr m c i).toNat < 3)
    (c : Dev nD) (t : Fin cfg0.N) :
    outBlk m c t (ix2 0 1)
      = ∑ r : Fin 1024, sqDist (featArr m c) (cenArr m c) (tileRow t r) (cls (labArr m c (ix1 (tileRow t r))) + 1) := by
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (ix2 0 1) = _
  rw [stored_next]
  refine (pay_next (featBlk m c t) (labBlk m c t) (cenTBlk m c t) (normBlk m c t) (labBlk_lt m hl c t)).trans ?_
  refine Finset.sum_congr rfl fun r _ => ?_
  rw [rowSq_tile m hf hc hl c t r, labBlk_apply m c t r]

/-- Entry (0, 2): the tile's rows against the class two after their own. -/
theorem blk_after (hf : ∀ (c : Dev nD) (i : S32768x2048.Idx), ∃ x : ℝ, featArr m c i = (x : EReal))
    (hc : ∀ (c : Dev nD) (i : S3x2048.Idx), ∃ x : ℝ, cenArr m c i = (x : EReal))
    (hl : ∀ (c : Dev nD) (i : S32768.Idx), (labArr m c i).toNat < 3)
    (c : Dev nD) (t : Fin cfg0.N) :
    outBlk m c t (ix2 0 2)
      = ∑ r : Fin 1024, sqDist (featArr m c) (cenArr m c) (tileRow t r) (cls (labArr m c (ix1 (tileRow t r))) + 2) := by
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (ix2 0 2) = _
  rw [stored_after]
  refine (pay_after (featBlk m c t) (labBlk m c t) (cenTBlk m c t) (normBlk m c t) (labBlk_lt m hl c t)).trans ?_
  refine Finset.sum_congr rfl fun r _ => ?_
  rw [rowSq_tile m hf hc hl c t r, labBlk_apply m c t r]

/-- Entry (0, j) for j = 0, 1, 2, in one statement. -/
theorem blk_col (hf : ∀ (c : Dev nD) (i : S32768x2048.Idx), ∃ x : ℝ, featArr m c i = (x : EReal))
    (hc : ∀ (c : Dev nD) (i : S3x2048.Idx), ∃ x : ℝ, cenArr m c i = (x : EReal))
    (hl : ∀ (c : Dev nD) (i : S32768.Idx), (labArr m c i).toNat < 3)
    (c : Dev nD) (t : Fin cfg0.N) (j : Fin 3) :
    outBlk m c t (ix2 0 (j.castLE (by decide)))
      = ∑ r : Fin 1024, sqDist (featArr m c) (cenArr m c) (tileRow t r) (cls (labArr m c (ix1 (tileRow t r))) + j) := by
  match j with
  | ⟨0, _⟩ =>
    refine (blk_own m hf hc hl c t).trans (Finset.sum_congr rfl fun r _ => ?_)
    exact congrArg _ (add_zero _).symm
  | ⟨1, _⟩ => exact blk_next m hf hc hl c t
  | ⟨2, _⟩ => exact blk_after m hf hc hl c t

/-- A column sum over the tiles is the total over all sample rows. -/
theorem colSum_eq (hf : ∀ (c : Dev nD) (i : S32768x2048.Idx), ∃ x : ℝ, featArr m c i = (x : EReal))
    (hc : ∀ (c : Dev nD) (i : S3x2048.Idx), ∃ x : ℝ, cenArr m c i = (x : EReal))
    (hl : ∀ (c : Dev nD) (i : S32768.Idx), (labArr m c i).toNat < 3)
    (c : Dev nD) (j : Fin 3) :
    colSum (outArr m c) j = total (featArr m c) (labArr m c) (cenArr m c) j := by
  unfold colSum total
  rw [← sum_tiles]
  refine Finset.sum_congr rfl fun t _ => ?_
  exact (outArr_first m c (t.cast N_0.symm) (j.castLE (by decide))).trans (blk_col m hf hc hl c (t.cast N_0.symm) j)

/-- THE KERNEL'S RUN, READ: every weakly fair execution terminates with the result buffer at the center loss of the
    argument arrays, which end unchanged. -/
theorem run (hf : ∀ (c : Dev nD) (i : S32768x2048.Idx), ∃ x : ℝ, featArr m c i = (x : EReal))
    (hc : ∀ (c : Dev nD) (i : S3x2048.Idx), ∃ x : ℝ, cenArr m c i = (x : EReal))
    (hl : ∀ (c : Dev nD) (i : S32768.Idx), (labArr m c i).toNat < 3) :
    θ_run defs (onTc (τ := τ) (main (F := Ideal))) ⟨m, fun _ => 0, ρ⟩ fun r => ∀ c : Dev nD,
      r.2.mem ((c.tc : Thread nD τ).loc main_v22) = (fun _ => loss (featArr m c) (labArr m c) (cenArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v22 (Pipeline.mem_restRefs_of main_v22 (by decide) (by decide))).trans
        ((tail_value m c).trans ((tail_apply (outArr m c)).trans (by
          unfold loss
          rw [colSum_eq m hf hc hl c 0, colSum_eq m hf hc hl c 1, colSum_eq m hf hc hl c 2]
          rfl))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.RefTerm.lean ====
/-
  What the reference computes, as one pure term of its three argument arrays, built from the same operations in the
  same order as its host program: the own-center gather at the label (a negative label wrapped by adding 3, as array
  indexing does), the two other-center gathers at `(label + 1) mod 3` and `(label + 2) mod 3` (the outlined
  remainder: the truncated remainder, corrected by the divisor when its sign differs from the divisor's), the three sums
  of squared differences, and the closing scalar arithmetic.
-/
import proofs.«410918_j51951924413098_3_alg».proof.ReferenceIdeal
import proofs.«410918_j51951924413098_3_alg».proof.Proof.Gen.ReferenceIdeal

noncomputable section

namespace Cert.ReferenceIdeal.RefValue

open Cert.ReferenceIdeal Idealize.ShloMosaic Cert.ReferenceIdeal.Facts₀

variable {F : FTy → Type} [FloatOps F]

/-- The outlined remainder of a column of words `x` by a scalar word `n`: the divisor is `n`, or 1 where `n` is zero; the
    truncated remainder `r`; and `r + divisor` where `r` is nonzero and its sign differs from the divisor's, else `r`. -/
def remainder (x : IVec S32768 32) (n : IVec S_ 32) : IVec S32768 32 :=
  let v0 : IVec S_ 32 := id n
  let c : IVec S_ 32 := constantI S_ 32 0#32
  let v1 : IVec S_ 1 := cmpi .eq v0 c
  let c_0 : IVec S_ 32 := constantI S_ 32 1#32
  let v2 : IVec S_ 32 := select v1 c_0 v0
  let v3 : IVec S32768 32 := broadcastInDim S32768 ![] bcast_S_S32768 v2
  let v4 : IVec S32768 32 := Host.remsi x v3
  let c_1 : IVec S_ 32 := constantI S_ 32 0#32
  let v5 : IVec S32768 32 := broadcastInDim S32768 ![] bcast_S_S32768 c_1
  let v6 : IVec S32768 1 := cmpi .ne v4 v5
  let c_2 : IVec S_ 32 := constantI S_ 32 0#32
  let v7 : IVec S32768 32 := broadcastInDim S32768 ![] bcast_S_S32768 c_2
  let v8 : IVec S32768 1 := cmpi .slt v4 v7
  let c_3 : IVec S_ 32 := constantI S_ 32 0#32
  let v9 : IVec S_ 1 := cmpi .slt v2 c_3
  let v10 : IVec S32768 1 := broadcastInDim S32768 ![] bcast_S_S32768 v9
  let v11 : IVec S32768 1 := cmpi .ne v8 v10
  let v12 : IVec S32768 1 := andi v11 v6
  let v13 : IVec S32768 32 := broadcastInDim S32768 ![] bcast_S_S32768 v2
  let v14 : IVec S32768 32 := addi v4 v13
  select v12 v14 v4

/-- A column of class indices as array indexing reads it: a negative index has 3 added; then laid out as the
    one-column table of start indices the gather takes. -/
def wrapColumn (x : IVec S32768 32) : IVec S32768x1 32 :=
  let zero : IVec S32768 32 := broadcastInDim S32768 ![] bcast_S_S32768 (constantI S_ 32 0#32)
  let neg : IVec S32768 1 := cmpi .slt x zero
  let three : IVec S32768 32 := broadcastInDim S32768 ![] bcast_S_S32768 (constantI S_ 32 3#32)
  let wrapped : IVec S32768 32 := select neg (addi x three) x
  broadcastInDim S32768x1 ![0] bcast_S32768_S32768x1_0 wrapped

/-- The center rows the indices `x` name, one per sample row. -/
def centersAt (cen : FVec F S3x2048 .f32) (x : IVec S32768 32) : FVec F S32768x2048 .f32 :=
  Host.gather gather_S3x2048_S32768x1_S32768x2048_1_0_n_n_0_1_12048 cen (wrapColumn x)

/-- The sum over all rows and features of the squared difference of the features and the gathered centers. -/
def sumSq (feat g : FVec F S32768x2048 .f32) : FVec F S_ .f32 :=
  Host.reduceAdd (mulf (subf feat g) (subf feat g)) (constant S_ .f32 0x00000000#32) reducesTo_S32768x2048_S_d0_1 h_S_

/-- `label + k` on every row. -/
def shifted (label : IVec S32768 32) (k : BitVec 32) : IVec S32768 32 :=
  addi label (broadcastInDim S32768 ![] bcast_S_S32768 (constantI S_ 32 k))

/-- The reference's result: `main · (1 + 1 / (spread₁ + spread₂)) / 2 / 32768`. -/
def refOut (feat : FVec F S32768x2048 .f32) (label : IVec S32768 32) (cen : FVec F S3x2048 .f32) : FVec F S_ .f32 :=
  let own : FVec F S32768x2048 .f32 := centersAt cen label
  let next : FVec F S32768x2048 .f32 := centersAt cen (remainder (shifted label 1#32) (constantI S_ 32 3#32))
  let after : FVec F S32768x2048 .f32 := centersAt cen (remainder (shifted label 2#32) (constantI S_ 32 3#32))
  let spread : FVec F S_ .f32 := addf (sumSq feat next) (sumSq feat after)
  let main : FVec F S_ .f32 := sumSq feat own
  let inv : FVec F S_ .f32 := Host.divf (constant S_ .f32 0x3F800000#32) spread
  let scaled : FVec F S_ .f32 := mulf main (addf (constant S_ .f32 0x3F800000#32) inv)
  Host.divf (Host.divf scaled (constant S_ .f32 0x40000000#32)) (constant S_ .f32 0x47000000#32)

end Cert.ReferenceIdeal.RefValue

end
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.RefRun.lean ====
/-
  The reference's run: its host program is a straight line of operations (the two calls of the outlined remainder, and
  the select they call, written out at their call sites), so every weakly fair execution terminates with the result
  buffer at the composed term `refOut` of the argument arrays, which end unchanged.
-/
import proofs.«410918_j51951924413098_3_alg».proof.Proof.RefTerm
import proofs.«410918_j51951924413098_3_alg».proof.Proof.LibTypedRead
import Idealize.ShloMosaic.Lib.StableHlo.Run

noncomputable section

namespace Cert.TypedRead

open Idealize.ShloMosaic Idealize.ShloMosaic.StableHlo

section Ternary

variable {τ : Topo} {sig : RefSig} {Val : EltTy → Type} {T Tc Ta Tb Ty : BufTy}

/-- A three-operand typed operation's result, read at its own reference at the reference's type: the function of the
    three operands' contents read the same way (to the buffer's type and back is the identity). -/
theorem read_ternary (c : TRef sig Tc) (a : TRef sig Ta) (b : TRef sig Tb) (y : TRef sig Ty)
    (f : Tc.Contents Val → Ta.Contents Val → Tb.Contents Val → Ty.Contents Val) (V : Valuation τ sig Val) :
    read y ((no_index (TRef.ternary (τ := τ) c a b y f)).result V) = f (read c V) (read a V) (read b V) := by
  unfold read
  exact (congrArg y.ofBuf (ternary_result c.ref a.ref b.ref y.ref
    (fun w u v => y.toBuf (f (c.ofBuf w) (a.ofBuf u) (b.ofBuf v))) c.dev a.dev b.dev y.dev V)).trans (ofBuf_toBuf y _)

/-- … and read at any other reference: what was there. -/
theorem read_ternary_ne (z : TRef sig T) (c : TRef sig Tc) (a : TRef sig Ta) (b : TRef sig Tb) (y : TRef sig Ty)
    (f : Tc.Contents Val → Ta.Contents Val → Tb.Contents Val → Ty.Contents Val) (V : Valuation τ sig Val) (h : z.ref ≠ y.ref) :
    read z ((no_index (TRef.ternary (τ := τ) c a b y f)).result V) = read z V := by
  unfold read
  exact congrArg z.ofBuf (ternary_result_ne (c := c.ref) (a := a.ref) (b := b.ref) (y := y.ref)
    (fun w u v => y.toBuf (f (c.ofBuf w) (a.ofBuf u) (b.ofBuf v))) c.dev a.dev b.dev y.dev V h)

end Ternary

end Cert.TypedRead

namespace Cert.ReferenceIdeal.RefValue

open Cert.ReferenceIdeal Cert.ReferenceIdeal.Facts₀ Idealize.ShloMosaic Idealize.ShloMosaic.TcCoe Idealize.SL.Sem Idealize.ShloMosaic.StableHlo
open Cert.TypedRead

variable {F : FTy → Type} [FloatOps F]

/-- The reference's 99 operations in order, the two calls of the outlined remainder written out at their call sites
    over the calls' own buffers (twenty operations each, and the one select of the function they call): thirteen
    operations up to the first call (the own-center gather among them), thirteen between the calls (the second gather),
    nine after the second call (the third gather), and the twenty-two of the three sums of squares and the closing scalar
    arithmetic. Every operation is written over references that carry the type of the tensor value they hold. -/
abbrev ops : List (HloOp τ sig (Elt F)) :=
  [ TRef.nullary (.of main_c : TRef sig ⟨S_, .i32⟩) (constantI S_ 32 0#32),
    TRef.unary (.of main_c : TRef sig ⟨S_, .i32⟩) (.of main_v0 : TRef sig ⟨S32768, .i32⟩) (broadcastInDim S32768 ![] bcast_S_S32768),
    TRef.binary (.of main_arg1 : TRef sig ⟨S32768, .i32⟩) (.of main_v0 : TRef sig ⟨S32768, .i32⟩) (.of main_v1 : TRef sig ⟨S32768, .i1⟩) (cmpi .slt),
    TRef.nullary (.of main_c_0 : TRef sig ⟨S_, .i32⟩) (constantI S_ 32 3#32),
    TRef.unary (.of main_c_0 : TRef sig ⟨S_, .i32⟩) (.of main_v2 : TRef sig ⟨S32768, .i32⟩) (broadcastInDim S32768 ![] bcast_S_S32768),
    TRef.binary (.of main_arg1 : TRef sig ⟨S32768, .i32⟩) (.of main_v2 : TRef sig ⟨S32768, .i32⟩) (.of main_v3 : TRef sig ⟨S32768, .i32⟩) (addi),
    TRef.ternary (.of main_v1 : TRef sig ⟨S32768, .i1⟩) (.of main_v3 : TRef sig ⟨S32768, .i32⟩) (.of main_arg1 : TRef sig ⟨S32768, .i32⟩) (.of main_v4 : TRef sig ⟨S32768, .i32⟩) (select),
    TRef.unary (.of main_v4 : TRef sig ⟨S32768, .i32⟩) (.of main_v5 : TRef sig ⟨S32768x1, .i32⟩) (broadcastInDim S32768x1 ![0] bcast_S32768_S32768x1_0),
    TRef.binary (.of main_arg2 : TRef sig ⟨S3x2048, .f32⟩) (.of main_v5 : TRef sig ⟨S32768x1, .i32⟩) (.of main_v6 : TRef sig ⟨S32768x2048, .f32⟩) (fun x i => Host.gather gather_S3x2048_S32768x1_S32768x2048_1_0_n_n_0_1_12048 x i),
    TRef.nullary (.of main_c_1 : TRef sig ⟨S_, .i32⟩) (constantI S_ 32 1#32),
    TRef.unary (.of main_c_1 : TRef sig ⟨S_, .i32⟩) (.of main_v7 : TRef sig ⟨S32768, .i32⟩) (broadcastInDim S32768 ![] bcast_S_S32768),
    TRef.binary (.of main_arg1 : TRef sig ⟨S32768, .i32⟩) (.of main_v7 : TRef sig ⟨S32768, .i32⟩) (.of main_v8 : TRef sig ⟨S32768, .i32⟩) (addi),
    TRef.nullary (.of main_c_2 : TRef sig ⟨S_, .i32⟩) (constantI S_ 32 3#32),
    TRef.unary (.of main_c_2 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S32768 ![] bcast_S_S32768),
    TRef.binary (.of main_v8 : TRef sig ⟨S32768, .i32⟩) main_call0.v3 main_call0.v4 Host.remsi,
    TRef.nullary main_call0.c_1 (constantI S_ 32 0#32),
    TRef.unary main_call0.c_1 main_call0.v5 (broadcastInDim S32768 ![] bcast_S_S32768),
    TRef.binary main_call0.v4 main_call0.v5 main_call0.v6 (cmpi .ne),
    TRef.nullary main_call0.c_2 (constantI S_ 32 0#32),
    TRef.unary main_call0.c_2 main_call0.v7 (broadcastInDim S32768 ![] bcast_S_S32768),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S32768 ![] bcast_S_S32768),
    TRef.binary main_call0.v8 main_call0.v10 main_call0.v11 (cmpi .ne),
    TRef.binary main_call0.v11 main_call0.v6 main_call0.v12 andi,
    TRef.unary main_call0.call0.v0 main_call0.v13 (broadcastInDim S32768 ![] bcast_S_S32768),
    TRef.binary main_call0.v4 main_call0.v13 main_call0.v14 addi,
    TRef.ternary main_call0.v12 main_call0.v14 main_call0.v4 (.of main_v9 : TRef sig ⟨S32768, .i32⟩) select,
    TRef.nullary (.of main_c_3 : TRef sig ⟨S_, .i32⟩) (constantI S_ 32 0#32),
    TRef.unary (.of main_c_3 : TRef sig ⟨S_, .i32⟩) (.of main_v10 : TRef sig ⟨S32768, .i32⟩) (broadcastInDim S32768 ![] bcast_S_S32768),
    TRef.binary (.of main_v9 : TRef sig ⟨S32768, .i32⟩) (.of main_v10 : TRef sig ⟨S32768, .i32⟩) (.of main_v11 : TRef sig ⟨S32768, .i1⟩) (cmpi .slt),
    TRef.nullary (.of main_c_4 : TRef sig ⟨S_, .i32⟩) (constantI S_ 32 3#32),
    TRef.unary (.of main_c_4 : TRef sig ⟨S_, .i32⟩) (.of main_v12 : TRef sig ⟨S32768, .i32⟩) (broadcastInDim S32768 ![] bcast_S_S32768),
    TRef.binary (.of main_v9 : TRef sig ⟨S32768, .i32⟩) (.of main_v12 : TRef sig ⟨S32768, .i32⟩) (.of main_v13 : TRef sig ⟨S32768, .i32⟩) (addi),
    TRef.ternary (.of main_v11 : TRef sig ⟨S32768, .i1⟩) (.of main_v13 : TRef sig ⟨S32768, .i32⟩) (.of main_v9 : TRef sig ⟨S32768, .i32⟩) (.of main_v14 : TRef sig ⟨S32768, .i32⟩) (select),
    TRef.unary (.of main_v14 : TRef sig ⟨S32768, .i32⟩) (.of main_v15 : TRef sig ⟨S32768x1, .i32⟩) (broadcastInDim S32768x1 ![0] bcast_S32768_S32768x1_0),
    TRef.binary (.of main_arg2 : TRef sig ⟨S3x2048, .f32⟩) (.of main_v15 : TRef sig ⟨S32768x1, .i32⟩) (.of main_v16 : TRef sig ⟨S32768x2048, .f32⟩) (fun x i => Host.gather gather_S3x2048_S32768x1_S32768x2048_1_0_n_n_0_1_12048 x i),
    TRef.nullary (.of main_c_5 : TRef sig ⟨S_, .i32⟩) (constantI S_ 32 2#32),
    TRef.unary (.of main_c_5 : TRef sig ⟨S_, .i32⟩) (.of main_v17 : TRef sig ⟨S32768, .i32⟩) (broadcastInDim S32768 ![] bcast_S_S32768),
    TRef.binary (.of main_arg1 : TRef sig ⟨S32768, .i32⟩) (.of main_v17 : TRef sig ⟨S32768, .i32⟩) (.of main_v18 : TRef sig ⟨S32768, .i32⟩) (addi),
    TRef.nullary (.of main_c_6 : TRef sig ⟨S_, .i32⟩) (constantI S_ 32 3#32),
    TRef.unary (.of main_c_6 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S32768 ![] bcast_S_S32768),
    TRef.binary (.of main_v18 : TRef sig ⟨S32768, .i32⟩) main_call1.v3 main_call1.v4 Host.remsi,
    TRef.nullary main_call1.c_1 (constantI S_ 32 0#32),
    TRef.unary main_call1.c_1 main_call1.v5 (broadcastInDim S32768 ![] bcast_S_S32768),
    TRef.binary main_call1.v4 main_call1.v5 main_call1.v6 (cmpi .ne),
    TRef.nullary main_call1.c_2 (constantI S_ 32 0#32),
    TRef.unary main_call1.c_2 main_call1.v7 (broadcastInDim S32768 ![] bcast_S_S32768),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S32768 ![] bcast_S_S32768),
    TRef.binary main_call1.v8 main_call1.v10 main_call1.v11 (cmpi .ne),
    TRef.binary main_call1.v11 main_call1.v6 main_call1.v12 andi,
    TRef.unary main_call1.call0.v0 main_call1.v13 (broadcastInDim S32768 ![] bcast_S_S32768),
    TRef.binary main_call1.v4 main_call1.v13 main_call1.v14 addi,
    TRef.ternary main_call1.v12 main_call1.v14 main_call1.v4 (.of main_v19 : TRef sig ⟨S32768, .i32⟩) select,
    TRef.nullary (.of main_c_7 : TRef sig ⟨S_, .i32⟩) (constantI S_ 32 0#32),
    TRef.unary (.of main_c_7 : TRef sig ⟨S_, .i32⟩) (.of main_v20 : TRef sig ⟨S32768, .i32⟩) (broadcastInDim S32768 ![] bcast_S_S32768),
    TRef.binary (.of main_v19 : TRef sig ⟨S32768, .i32⟩) (.of main_v20 : TRef sig ⟨S32768, .i32⟩) (.of main_v21 : TRef sig ⟨S32768, .i1⟩) (cmpi .slt),
    TRef.nullary (.of main_c_8 : TRef sig ⟨S_, .i32⟩) (constantI S_ 32 3#32),
    TRef.unary (.of main_c_8 : TRef sig ⟨S_, .i32⟩) (.of main_v22 : TRef sig ⟨S32768, .i32⟩) (broadcastInDim S32768 ![] bcast_S_S32768),
    TRef.binary (.of main_v19 : TRef sig ⟨S32768, .i32⟩) (.of main_v22 : TRef sig ⟨S32768, .i32⟩) (.of main_v23 : TRef sig ⟨S32768, .i32⟩) (addi),
    TRef.ternary (.of main_v21 : TRef sig ⟨S32768, .i1⟩) (.of main_v23 : TRef sig ⟨S32768, .i32⟩) (.of main_v19 : TRef sig ⟨S32768, .i32⟩) (.of main_v24 : TRef sig ⟨S32768, .i32⟩) (select),
    TRef.unary (.of main_v24 : TRef sig ⟨S32768, .i32⟩) (.of main_v25 : TRef sig ⟨S32768x1, .i32⟩) (broadcastInDim S32768x1 ![0] bcast_S32768_S32768x1_0),
    TRef.binary (.of main_arg2 : TRef sig ⟨S3x2048, .f32⟩) (.of main_v25 : TRef sig ⟨S32768x1, .i32⟩) (.of main_v26 : TRef sig ⟨S32768x2048, .f32⟩) (fun x i => Host.gather gather_S3x2048_S32768x1_S32768x2048_1_0_n_n_0_1_12048 x i),
    TRef.binary (.of main_arg0 : TRef sig ⟨S32768x2048, .f32⟩) (.of main_v16 : TRef sig ⟨S32768x2048, .f32⟩) (.of main_v27 : TRef sig ⟨S32768x2048, .f32⟩) (subf),
    TRef.binary (.of main_v27 : TRef sig ⟨S32768x2048, .f32⟩) (.of main_v27 : TRef sig ⟨S32768x2048, .f32⟩) (.of main_v28 : TRef sig ⟨S32768x2048, .f32⟩) (mulf),
    TRef.nullary (.of main_cst : TRef sig ⟨S_, .f32⟩) (constant S_ .f32 0x00000000#32),
    TRef.binary (.of main_v28 : TRef sig ⟨S32768x2048, .f32⟩) (.of main_cst : TRef sig ⟨S_, .f32⟩) (.of main_v29 : TRef sig ⟨S_, .f32⟩) (fun x v => Host.reduceAdd x v reducesTo_S32768x2048_S_d0_1 h_S_),
    TRef.binary (.of main_arg0 : TRef sig ⟨S32768x2048, .f32⟩) (.of main_v26 : TRef sig ⟨S32768x2048, .f32⟩) (.of main_v30 : TRef sig ⟨S32768x2048, .f32⟩) (subf),
    TRef.binary (.of main_v30 : TRef sig ⟨S32768x2048, .f32⟩) (.of main_v30 : TRef sig ⟨S32768x2048, .f32⟩) (.of main_v31 : TRef sig ⟨S32768x2048, .f32⟩) (mulf),
    TRef.nullary (.of main_cst_9 : TRef sig ⟨S_, .f32⟩) (constant S_ .f32 0x00000000#32),
    TRef.binary (.of main_v31 : TRef sig ⟨S32768x2048, .f32⟩) (.of main_cst_9 : TRef sig ⟨S_, .f32⟩) (.of main_v32 : TRef sig ⟨S_, .f32⟩) (fun x v => Host.reduceAdd x v reducesTo_S32768x2048_S_d0_1 h_S_),
    TRef.binary (.of main_v29 : TRef sig ⟨S_, .f32⟩) (.of main_v32 : TRef sig ⟨S_, .f32⟩) (.of main_v33 : TRef sig ⟨S_, .f32⟩) (addf),
    TRef.binary (.of main_arg0 : TRef sig ⟨S32768x2048, .f32⟩) (.of main_v6 : TRef sig ⟨S32768x2048, .f32⟩) (.of main_v34 : TRef sig ⟨S32768x2048, .f32⟩) (subf),
    TRef.binary (.of main_v34 : TRef sig ⟨S32768x2048, .f32⟩) (.of main_v34 : TRef sig ⟨S32768x2048, .f32⟩) (.of main_v35 : TRef sig ⟨S32768x2048, .f32⟩) (mulf),
    TRef.nullary (.of main_cst_10 : TRef sig ⟨S_, .f32⟩) (constant S_ .f32 0x00000000#32),
    TRef.binary (.of main_v35 : TRef sig ⟨S32768x2048, .f32⟩) (.of main_cst_10 : TRef sig ⟨S_, .f32⟩) (.of main_v36 : TRef sig ⟨S_, .f32⟩) (fun x v => Host.reduceAdd x v reducesTo_S32768x2048_S_d0_1 h_S_),
    TRef.nullary (.of main_cst_11 : TRef sig ⟨S_, .f32⟩) (constant S_ .f32 0x3F800000#32),
    TRef.binary (.of main_cst_11 : TRef sig ⟨S_, .f32⟩) (.of main_v33 : TRef sig ⟨S_, .f32⟩) (.of main_v37 : TRef sig ⟨S_, .f32⟩) (Host.divf),
    TRef.nullary (.of main_cst_12 : TRef sig ⟨S_, .f32⟩) (constant S_ .f32 0x3F800000#32),
    TRef.binary (.of main_cst_12 : TRef sig ⟨S_, .f32⟩) (.of main_v37 : TRef sig ⟨S_, .f32⟩) (.of main_v38 : TRef sig ⟨S_, .f32⟩) (addf),
    TRef.binary (.of main_v36 : TRef sig ⟨S_, .f32⟩) (.of main_v38 : TRef sig ⟨S_, .f32⟩) (.of main_v39 : TRef sig ⟨S_, .f32⟩) (mulf),
    TRef.nullary (.of main_cst_13 : TRef sig ⟨S_, .f32⟩) (constant S_ .f32 0x40000000#32),
    TRef.binary (.of main_v39 : TRef sig ⟨S_, .f32⟩) (.of main_cst_13 : TRef sig ⟨S_, .f32⟩) (.of main_v40 : TRef sig ⟨S_, .f32⟩) (Host.divf),
    TRef.nullary (.of main_cst_14 : TRef sig ⟨S_, .f32⟩) (constant S_ .f32 0x47000000#32),
    TRef.binary (.of main_v40 : TRef sig ⟨S_, .f32⟩) (.of main_cst_14 : TRef sig ⟨S_, .f32⟩) (.of main_v41 : TRef sig ⟨S_, .f32⟩) (Host.divf) ]

-- the chain of binds is walked once per operation on each side
set_option maxRecDepth 16384 in
set_option maxHeartbeats 1000000 in
/-- The host program is that straight line, by computation: sequencing grafts what follows onto the end of what comes
    first, so with the two functions' definitions unfolded at their calls and the records at their fields both sides are
    the same chain of steps; an operation of the program written over plain references and the same operation over
    typed ones agree because moving a value to a buffer's type along a reflexive equation is the identity. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., binary_bufs_sub .., binary_bufs_sub .., binary_bufs_sub .., nullary_bufs_sub ..,
    binary_bufs_sub .., binary_bufs_sub .., binary_bufs_sub .., binary_bufs_sub .., nullary_bufs_sub .., binary_bufs_sub ..,
    nullary_bufs_sub .., binary_bufs_sub .., nullary_bufs_sub .., binary_bufs_sub .., binary_bufs_sub .., nullary_bufs_sub ..,
    binary_bufs_sub .., nullary_bufs_sub .., binary_bufs_sub ..⟩

attribute [local irreducible] Host.gather Host.reduceAdd Host.remsi Host.divf in
set_option maxRecDepth 16384 in
set_option maxHeartbeats 4000000 in
/-- After the line the result buffer holds `refOut` of what the three argument buffers held before it. Reading every
    buffer at the type of its tensor value, each operation's result at its own buffer is its function of its operands'
    contents, and at any other buffer what was there; composed from the last operation back to the arguments this is
    `refOut`, the same operations in the same order. -/
theorem out_eq (V : Valuation τ sig (Elt F)) :
    after ops V (Proc.devRef .tc main_v41)
      = refOut (V (Proc.devRef .tc main_arg0)) (V (Proc.devRef .tc main_arg1)) (V (Proc.devRef .tc main_arg2)) := by
  have r0 : read (.of main_arg0 : TRef sig ⟨S32768x2048, .f32⟩) V = V (Proc.devRef .tc main_arg0) := rfl
  have r1 : read (.of main_arg1 : TRef sig ⟨S32768, .i32⟩) V = V (Proc.devRef .tc main_arg1) := rfl
  have r2 : read (.of main_arg2 : TRef sig ⟨S3x2048, .f32⟩) V = V (Proc.devRef .tc main_arg2) := rfl
  have k : ∀ W : Valuation τ sig (Elt F),
      W (Proc.devRef .tc main_v41) = read (.of main_v41 : TRef sig ⟨S_, .f32⟩) W := fun _ => rfl
  refine (k (after ops V)).trans ?_
  simp (disch := decide) only [after_cons, after_nil, read_nullary, read_unary, read_binary, read_ternary,
    read_nullary_ne, read_unary_ne, read_binary_ne, read_ternary_ne, r0, r1, r2]
  rfl

set_option maxRecDepth 16384 in
set_option maxHeartbeats 4000000 in
/-- No operation writes the first argument's buffer. -/
theorem arg0_eq (V : Valuation τ sig (Elt F)) :
    after ops V (Proc.devRef .tc main_arg0) = V (Proc.devRef .tc main_arg0) := by
  have k : ∀ W : Valuation τ sig (Elt F),
      W (Proc.devRef .tc main_arg0) = read (.of main_arg0 : TRef sig ⟨S32768x2048, .f32⟩) W := fun _ => rfl
  refine (k (after ops V)).trans (Eq.trans ?_ (k V).symm)
  simp (disch := decide) only [after_cons, after_nil, read_nullary_ne, read_unary_ne, read_binary_ne, read_ternary_ne]

set_option maxRecDepth 16384 in
set_option maxHeartbeats 4000000 in
/-- No operation writes the second argument's buffer. -/
theorem arg1_eq (V : Valuation τ sig (Elt F)) :
    after ops V (Proc.devRef .tc main_arg1) = V (Proc.devRef .tc main_arg1) := by
  have k : ∀ W : Valuation τ sig (Elt F),
      W (Proc.devRef .tc main_arg1) = read (.of main_arg1 : TRef sig ⟨S32768, .i32⟩) W := fun _ => rfl
  refine (k (after ops V)).trans (Eq.trans ?_ (k V).symm)
  simp (disch := decide) only [after_cons, after_nil, read_nullary_ne, read_unary_ne, read_binary_ne, read_ternary_ne]

set_option maxRecDepth 16384 in
set_option maxHeartbeats 4000000 in
/-- No operation writes the third argument's buffer. -/
theorem arg2_eq (V : Valuation τ sig (Elt F)) :
    after ops V (Proc.devRef .tc main_arg2) = V (Proc.devRef .tc main_arg2) := by
  have k : ∀ W : Valuation τ sig (Elt F),
      W (Proc.devRef .tc main_arg2) = read (.of main_arg2 : TRef sig ⟨S3x2048, .f32⟩) W := fun _ => rfl
  refine (k (after ops V)).trans (Eq.trans ?_ (k V).symm)
  simp (disch := decide) only [after_cons, after_nil, read_nullary_ne, read_unary_ne, read_binary_ne, read_ternary_ne]

/-- Every weakly fair execution of the reference terminates, its result at `refOut` of the arguments, the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v41).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefValue

end
-- ==== Proof.LibGatherRows.lean ====
/-
  A row gather read at an element.

  jnp's `table[idx]` over a rank-2 table `[N, D]` at a vector of `n` row numbers prints as a `stablehlo.gather` whose
  start indices are the `[n, 1]` column of row numbers: operand axis 0 is collapsed and start-indexed, operand axis 1 is
  the one offset axis (the whole row is the slice), there are no batching axes, and the index vector lies on axis 1 of the
  start indices.  Per operand axis the element read is the clamped start plus the batching coordinate plus the offset
  coordinate; here that is, on axis 0, the start index read signed and clamped into `[0, N - 1]`, and on axis 1 the
  result's own column.  So result element `(p, q)` is the table's element `(r, q)`, `r` the clamped row number of `p`.
-/
import Idealize.ShloMosaic.Lib.ValueIdx

namespace Cert.GatherRows

open Idealize.ShloMosaic Idealize.ShloMosaic.ValueIdx

/-- An entry of a one-element list is that element. -/
theorem getElem_of_eq_singleton {β : Type} (l : List β) (c : β) (hl : l = [c]) (k : Nat) (hk : k < l.length) :
    l[k]'hk = c := by
  subst hl
  have h0 : k = 0 := by simpa using hk
  subst h0
  rfl

/-- THE ROW GATHER AT `(p, q)`: the table at row `idx[p, 0]`, read signed and clamped into `[0, N - 1]`, and column `q`.
    The five hypotheses are the printed dimension numbers, each `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (⟨min (idx (ix2 p (0 : Fin 1))).toInt.toNat (N - 1), by omega⟩ : Fin N) q) := by
  unfold Host.gather
  congr 1
  funext a
  apply Fin.ext
  have hb : ∀ c : Fin 2, c ∉ d.operandBatchingDims := fun c => by rw [hob]; exact List.not_mem_nil
  have ha : a = (0 : Fin 2) ∨ a = (1 : Fin 2) := by
    have h2 : a.val < 2 := a.isLt
    rcases Nat.lt_or_ge a.val 1 with h | h
    · left; apply Fin.ext; show a.val = 0; omega
    · right; apply Fin.ext; show a.val = 1; omega
  rcases ha with rfl | rfl
  · -- the collapsed, start-indexed axis: the clamped start, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the start indices' row: the result's batch axis, which is its axis 0
      unfold GatherDims.siIdx
      rw [dif_neg (by rw [hivd]; simp)]
      unfold GatherDims.siCoord
      apply Fin.ext
      simp only [Fin.val_cast]
      have hbd : d.batchDims = [0] := by
        show (List.finRange 2).filter (fun c => c ∉ d.offsetDims) = [0]
        rw [hoff]
        exact (by decide : (List.finRange 2).filter (fun c => decide (c ∉ ([1] : List (Fin 2)))) = [0])
      have e : ∀ X : Fin 2, X = 0 → ((ix2 p q : (⟨2, ![n, D]⟩ : Shape).Idx) X).val = p.val := fun X hX => by
        subst hX; rfl
      exact e _ (getElem_of_eq_singleton _ _ hbd _ _)
    | ⟨1, _⟩ =>
      -- the index vector's axis: the one component of the start index
      unfold GatherDims.siIdx
      rw [dif_pos (by rw [hivd])]
      apply Fin.ext
      show List.idxOf (0 : Fin 2) d.startIndexMap = 0
      rw [hsim]; simp
  · -- the offset axis: no start, no batching coordinate, the result's column
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start,
      dif_neg hm, Nat.zero_add]
    unfold GatherDims.offCoord
    rw [dif_pos hk]
    have e : ∀ X : Fin 2, X = 1 → ((ix2 p q : (⟨2, ![n, D]⟩ : Shape).Idx) X).val = q.val := fun X hX => by
      subst hX; rfl
    exact e _ (getElem_of_eq_singleton _ _ hoff _ _)

end Cert.GatherRows
-- ==== Proof.RefValue.lean ====
/-
  The reference's term is the center loss.  With every label in {0, 1, 2}: the wrap of a negative index does nothing, the
  outlined remainder of `label + 1` and `label + 2` by 3 is the class one and two further (mod 3), a gather reads the
  center row of that class, and a sum over all rows and features is the sum over the rows of the sum over the features.
-/
import proofs.«410918_j51951924413098_3_alg».proof.Proof.RefTerm
import proofs.«410918_j51951924413098_3_alg».proof.Proof.Spec
import proofs.«410918_j51951924413098_3_alg».proof.Proof.LibGatherRows
import Idealize.ShloMosaic.Lib.IdealHost
import Idealize.ShloMosaic.Lib.StableHlo.Predicate
import Idealize.ShloMosaic.PureOps.Ideal.Laws

noncomputable section

namespace Cert.ReferenceIdeal.RefValue

open Cert.ReferenceIdeal Idealize.ShloMosaic Idealize.ShloMosaic.ValueIdx Cert.CenterLoss

/-! ## Words: a label in range, the wrap, and the outlined remainder -/

/-- A word below three is one of the three words 0, 1, 2. -/
private theorem word_lt_three (l : BitVec 32) (h : l.toNat < 3) : l = 0#32 ∨ l = 1#32 ∨ l = 2#32 := by
  have h3 : l.toNat = 0 ∨ l.toNat = 1 ∨ l.toNat = 2 := by omega
  rcases h3 with h | h | h
  · exact Or.inl (BitVec.eq_of_toNat_eq h)
  · exact Or.inr (Or.inl (BitVec.eq_of_toNat_eq h))
  · exact Or.inr (Or.inr (BitVec.eq_of_toNat_eq h))

/-- The wrap at one word: 3 is added where the word is negative. On a word below three it does nothing. -/
private theorem wrap_word (l : BitVec 32) (h : l.toNat < 3) :
    Scalar.select (IntOp.cmpi .slt l 0#32) (IntOp.addi l 3#32) l = l := by
  rcases word_lt_three l h with h | h | h <;> subst h <;> decide

/-- The outlined remainder at one word `a`, by the word `n`: the divisor `m` is `n`, or 1 where `n` is zero; `r` is the
    truncated remainder; the result is `r + m` where `r` is nonzero and its sign differs from `m`'s, else `r`. -/
private def remWord (a n : BitVec 32) : BitVec 32 :=
  let m := Scalar.select (IntOp.cmpi .eq n 0#32) 1#32 n
  let r := IntOp.remsi .host a m
  Scalar.select
    (IntOp.andi (IntOp.cmpi .ne (IntOp.cmpi .slt r 0#32) (IntOp.cmpi .slt m 0#32)) (IntOp.cmpi .ne r 0#32))
    (IntOp.addi r m) r

/-- The outlined remainder of a column by a splat scalar is, on every row, the word function of that row's word. -/
private theorem remainder_apply (x : IVec S32768 32) (n : BitVec 32) (i : S32768.Idx) :
    remainder x (constantI S_ 32 n) i = remWord (x i) n := rfl

/-- One further: for a word `l` below three, the remainder of `l + 1` by 3 is below three and names the class after `l`'s. -/
private theorem remWord_one (l : BitVec 32) (h : l.toNat < 3) :
    (remWord (IntOp.addi l 1#32) 3#32).toNat < 3 ∧ cls (remWord (IntOp.addi l 1#32) 3#32) = cls l + 1 := by
  rcases word_lt_three l h with h | h | h <;> subst h <;> decide

/-- Two further: likewise the remainder of `l + 2` by 3 names the class two after `l`'s. -/
private theorem remWord_two (l : BitVec 32) (h : l.toNat < 3) :
    (remWord (IntOp.addi l 2#32) 3#32).toNat < 3 ∧ cls (remWord (IntOp.addi l 2#32) 3#32) = cls l + 2 := by
  rcases word_lt_three l h with h | h | h <;> subst h <;> decide

/-! ## The start-index column and the gathered center rows -/

/-- A vector laid out as a one-column table reads, at row `p`, the vector at `p`. -/
private theorem column_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  unfold broadcastInDim
  refine congrArg v (funext fun a => ?_)
  obtain rfl : a = 0 := Subsingleton.elim _ _
  refine Fin.ext ?_
  have hp := p.isLt
  split
  · next h1 => change n = 1 at h1; show (0 : Nat) = p.val; omega
  · rfl

/-- The start-index column of a column of words below three holds, at row `p`, the word of row `p`. -/
private theorem wrapColumn_apply (x : IVec S32768 32) (p : Fin 32768) (hx : (x (ix1 p)).toNat < 3) :
    wrapColumn x (ix2 p (0 : Fin 1)) = x (ix1 p) := by
  show broadcastInDim S32768x1 ![0] Facts₀.bcast_S32768_S32768x1_0
      (select (cmpi .slt x (broadcastInDim S32768 ![] Facts₀.bcast_S_S32768 (constantI S_ 32 0#32)))
        (addi x (broadcastInDim S32768 ![] Facts₀.bcast_S_S32768 (constantI S_ 32 3#32))) x) (ix2 p (0 : Fin 1)) = x (ix1 p)
  rw [column_apply]
  exact wrap_word _ hx

/-- The gathered center row of sample row `b` is the center row of the class its word names. -/
private theorem centersAt_apply (cen : FVec Ideal S3x2048 .f32) (x : IVec S32768 32) (b : Fin 32768) (d : Fin 2048)
    (hx : (x (ix1 b)).toNat < 3) :
    centersAt cen x (ix2 b d) = cen (ix2 (cls (x (ix1 b))) d) := by
  have hr : (⟨min (wrapColumn x (ix2 b (0 : Fin 1))).toInt.toNat (3 - 1), by omega⟩ : Fin 3) = cls (x (ix1 b)) := by
    refine Fin.ext ?_
    show min (wrapColumn x (ix2 b (0 : Fin 1))).toInt.toNat (3 - 1) = (x (ix1 b)).toNat % 3
    rw [wrapColumn_apply x b hx, StableHlo.Predicate.toInt_eq_toNat_of_lt (by omega), Int.toNat_natCast]
    omega
  exact (Cert.GatherRows.gather_rows_apply _ rfl rfl rfl rfl rfl cen (wrapColumn x) b d (by decide)).trans
    (congrArg (fun r => cen (ix2 r d)) hr)

/-! ## The sums of squared differences -/

/-- The sum, over all rows and features, of the squared difference of the features and the gathered centers is the sum
    over the rows of the squared distance to the center each row's word names. -/
private theorem sumSq_centersAt (feat : FVec Ideal S32768x2048 .f32) (cen : FVec Ideal S3x2048 .f32) (x : IVec S32768 32)
    (hx : ∀ i, (x i).toNat < 3) (j : S_.Idx) :
    sumSq (F := Ideal) feat (centersAt cen x) j = ∑ b : Fin 32768, sqDist feat cen b (cls (x (ix1 b))) := by
  unfold sumSq
  rw [hostReduceAdd_apply, Ideal.hostReduceAdd_total _ (fun b => b.elim0), constant_apply, Ideal.ofBits_zero_f32, zero_add,
    sum_idx2]
  refine Finset.sum_congr rfl fun b _ => ?_
  unfold sqDist
  refine Finset.sum_congr rfl fun d _ => ?_
  rw [mulf_apply, subf_apply, centersAt_apply cen x b d (hx _)]

/-! ## The result -/

/-- For labels in range the reference's result is the center loss, at its one index. -/
theorem refOut_eq (feat : FVec Ideal S32768x2048 .f32) (label : IVec S32768 32) (cen : FVec Ideal S3x2048 .f32)
    (hl : ∀ i, (label i).toNat < 3) :
    refOut (F := Ideal) feat label cen = fun _ => loss feat label cen := by
  funext j
  -- the main term: every row's own class
  have e0 : sumSq (F := Ideal) feat (centersAt cen label) j = total feat label cen 0 := by
    rw [sumSq_centersAt feat cen label hl j]
    unfold total
    refine Finset.sum_congr rfl fun b _ => ?_
    rw [add_zero]
  -- the two spread terms: the class one and two further
  have e1 : sumSq (F := Ideal) feat (centersAt cen (remainder (shifted label 1#32) (constantI S_ 32 3#32))) j
      = total feat label cen 1 := by
    rw [sumSq_centersAt feat cen (remainder (shifted label 1#32) (constantI S_ 32 3#32))
      (fun i => (remWord_one (label i) (hl i)).1) j]
    unfold total
    refine Finset.sum_congr rfl fun b _ => ?_
    exact congrArg (sqDist feat cen b) (remWord_one (label (ix1 b)) (hl _)).2
  have e2 : sumSq (F := Ideal) feat (centersAt cen (remainder (shifted label 2#32) (constantI S_ 32 3#32))) j
      = total feat label cen 2 := by
    rw [sumSq_centersAt feat cen (remainder (shifted label 2#32) (constantI S_ 32 3#32))
      (fun i => (remWord_two (label i) (hl i)).1) j]
    unfold total
    refine Finset.sum_congr rfl fun b _ => ?_
    exact congrArg (sqDist feat cen b) (remWord_two (label (ix1 b)) (hl _)).2
  -- the closing scalars, the literal words kept as they are
  unfold refOut
  simp only [hostDivf_apply, mulf_apply, addf_apply, constant_apply]
  rw [e0, e1, e2]
  rfl

end Cert.ReferenceIdeal.RefValue

end
-- ==== Proof.lean ====
/-
  The center loss kernel against its jnp reference, over the extended reals.

  For 32768 samples of 2048 features, three class centers and a label per sample, both programs compute
  `main · (1 + 1 / (spread₁ + spread₂)) / 2 / 32768`, where `main` sums over the samples the squared distance to the own
  class's center and `spread₁`, `spread₂` the squared distances to the two other centers (the classes one and two after
  the own, mod 3).

  The reference gathers the three center rows per sample and sums the squared differences.  The kernel never forms a
  difference: per tile of 1024 samples it takes `Σ x²` by a lane sum, the three inner products `Σ x·c_k` by one matrix
  product against the transposed centers, adds the centers' squared norms, and lets three 0/1 masks of the label choose,
  for each of the three sums, which class's value a row contributes; each tile leaves three partial sums, which the host
  adds over the 32 tiles before the closing arithmetic, whose scale `0.5 / 32768` it spells as the one word `2⁻¹⁶`.

  The two agree because, on REAL entries, `(Σ x² − 2·Σ x·c) + Σ c² = Σ (x − c)²` (this is where the finiteness of the
  features and centers is used: the identity fails at infinities); because a label in {0, 1, 2} is its own class, so the
  kernel's clamp and the reference's index wrap both do nothing and the masks select exactly the gathered rows (this is
  where the label range is used); because sums over all samples may be taken tile by tile; and because multiplying by
  `2⁻¹⁶` is dividing by 2 and then by 32768 on every extended real.  The rewriting pass changed nothing in the kernel, so
  the idealized kernel is the kernel's own text read on the extended reals.
-/
import proofs.«410918_j51951924413098_3_alg».proof.Defs
import proofs.«410918_j51951924413098_3_alg».proof.Proof.Gen.Kernel
import proofs.«410918_j51951924413098_3_alg».proof.Proof.Gen.Kernel.Skeleton
import proofs.«410918_j51951924413098_3_alg».proof.Proof.Gen.Kernel.Launch
import proofs.«410918_j51951924413098_3_alg».proof.Proof.Gen.Kernel.Points
import proofs.«410918_j51951924413098_3_alg».proof.Proof.Gen.Kernel.Frame
import proofs.«410918_j51951924413098_3_alg».proof.Proof.Gen.KernelIdeal
import proofs.«410918_j51951924413098_3_alg».proof.Proof.Gen.KernelIdeal.Skeleton
import proofs.«410918_j51951924413098_3_alg».proof.Proof.Gen.KernelIdeal.Launch
import proofs.«410918_j51951924413098_3_alg».proof.Proof.Gen.KernelIdeal.Points
import proofs.«410918_j51951924413098_3_alg».proof.Proof.Gen.KernelIdeal.Frame
import proofs.«410918_j51951924413098_3_alg».proof.Proof.Gen.ReferenceIdeal
import proofs.«410918_j51951924413098_3_alg».proof.Proof.Gen.Pre_finite_inputs
import proofs.«410918_j51951924413098_3_alg».proof.Proof.PreDecode
import proofs.«410918_j51951924413098_3_alg».proof.Proof.KerValue
import proofs.«410918_j51951924413098_3_alg».proof.Proof.RefRun
import proofs.«410918_j51951924413098_3_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Nothing was rewritten in the kernel, so nothing is owed for its reading on the extended reals. -/
theorem preserves : Cert.preserves_Kernel_KernelIdeal := trivial

/-- From memories agreeing on the three arguments, with real features and centers and labels in {0, 1, 2}, both programs
    end with the center loss of the arguments in their result buffers. -/
theorem algebraic : Cert.algebraic_KernelIdeal_ReferenceIdeal := by
  intro m ρ m' ρ' hpre hagree
  have hf := fun (c : Dev Cert.KernelIdeal.nD) i => Cert.PreDecode.feat_real (hpre c) i
  have hc := fun (c : Dev Cert.KernelIdeal.nD) i => Cert.PreDecode.cen_real (hpre c) i
  have hl := fun (c : Dev Cert.KernelIdeal.nD) i => Cert.PreDecode.label_lt (hpre c) i
  refine ⟨fun c => fun _ => Cert.CenterLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ hf hc hl, ?_⟩
  refine (θ_run Cert.ReferenceIdeal.defs _ _).mono (fun _ h c => ⟨?_, (h c).2⟩)
    (Cert.ReferenceIdeal.RefValue.run (F := Ideal) m' ρ')
  rw [(h c).1, (hagree c).1, (hagree c).2.1, (hagree c).2.2]
  exact Cert.ReferenceIdeal.RefValue.refOut_eq _ _ _ (hl c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
